-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000x1 : Shape := ⟨2, ![1200000, 1]⟩
abbrev S100000 : Shape := ⟨1, ![100000]⟩
abbrev S100 : Shape := ⟨1, ![100]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x1 : S_.BroadcastsInDim S1200000x1 (![] : Fin 0 → Fin S1200000x1.rank)
  reducesTo_S1200000x1_S_d0_1 : S1200000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : IVec S100000 32) (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg4 main_v39
  let main_c_15 : IVec S_ 32 := constantI S_ 32 100#32
  let main_v41 : IVec S100000 32 := broadcastInDim S100000 ![] bcast_S_S100000 main_c_15
  let main_v42 : IVec S100000 1 := cmpi .slt main_arg4 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  main_v45

def fn_part1 {F : FTy → Type} [FloatOps F] (main_arg4 : IVec S100000 32) (main_arg7 : FVec F S64x64 .f32) (main_arg8 : FVec F S64x64 .f32) (main_arg9 : FVec F S64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg4 main_arg10 main_v33

def fn {F : FTy → Type} [FloatOps F] (main_arg0 : FVec F S100000x64 .f32) (main_arg1 : FVec F S100000x64 .f32) (main_arg2 : IVec S2x1200000 32) (main_arg3 : FVec F S1200000x1 .f32) (main_arg4 : IVec S100000 32) (main_arg5 : IVec S100 32) (main_arg6 : FVec F S64x64 .f32) (main_arg7 : FVec F S64x64 .f32) (main_arg8 : FVec F S64x64 .f32) (main_arg9 : FVec F S64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1200000x1 .f32 := Host.absf main_arg3
  let main_cst_2 : FVec F S_ .f32 := constant S_ .f32 0x7F800000#32
  let main_v10 : FVec F S1200000x1 .f32 := broadcastInDim S1200000x1 ![] bcast_S_S1200000x1 main_cst_2
  let main_v11 : IVec S1200000x1 1 := cmpf .olt main_v9 main_v10
  let main_c_3 : IVec S_ 1 := constantI S_ 1 1#1
  let main_v12 : IVec S_ 1 := (fun x v => Host.reduce IntOp.andi x v reducesTo_S1200000x1_S_d0_1 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg7 main_arg8 main_arg9 main_arg10 main_v13 main_v16
-- ==== Kernel.lean ====
abbrev S100000x64 : Shape := ⟨2, ![100000, 64]⟩
abbrev S2x1200000 : Shape := ⟨2, ![2, 1200000]⟩
abbrev S1200000x1 : Shape := ⟨2, ![1200000, 1]⟩
abbrev S100000 : Shape := ⟨1, ![100000]⟩
abbrev S100 : Shape := ⟨1, ![100]⟩
abbrev S64x64 : Shape := ⟨2, ![64, 64]⟩
abbrev S64 : Shape := ⟨1, ![64]⟩
abbrev S10000x64 : Shape := ⟨2, ![10000, 64]⟩
abbrev S1x1200000 : Shape := ⟨2, ![1, 1200000]⟩
abbrev S1200000 : Shape := ⟨1, ![1200000]⟩
abbrev S_ : Shape := ⟨0, ![]⟩
abbrev S1200000x64 : Shape := ⟨2, ![1200000, 64]⟩
abbrev S100000x1 : Shape := ⟨2, ![100000, 1]⟩
abbrev S100x1 : Shape := ⟨2, ![100, 1]⟩
abbrev S100x64 : Shape := ⟨2, ![100, 64]⟩
abbrev S10000x1 : Shape := ⟨2, ![10000, 1]⟩
abbrev S10000x100 : Shape := ⟨2, ![10000, 100]⟩
abbrev S1x64 : Shape := ⟨2, ![1, 64]⟩

abbrev nBuf : Space → Nat
  | .hbm => 53
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1200000, .i32⟩
  | .hbm, ⟨3, _⟩ => ⟨S1200000x1, .f32⟩
  | .hbm, ⟨4, _⟩ => ⟨S100000, .i32⟩
  | .hbm, ⟨5, _⟩ => ⟨S100, .i32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S100000x64, .f32⟩
  | .hbm, ⟨15, _⟩ => ⟨S1x1200000, .i32⟩
  | .hbm, ⟨16, _⟩ => ⟨S1200000, .i32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000x64, .f32⟩
  | .hbm, ⟨26, _⟩ => ⟨S1200000x64, .f32⟩
  | .hbm, ⟨27, _⟩ => ⟨S1200000x64, .f32⟩
  | .hbm, ⟨28, _⟩ => ⟨S1x1200000, .i32⟩
  | .hbm, ⟨29, _⟩ => ⟨S1200000, .i32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x1, .i32⟩
  | .hbm, ⟨35, _⟩ => ⟨S100, .f32⟩
  | .hbm, ⟨36, _⟩ => ⟨S100x1, .f32⟩
  | .hbm, ⟨37, _⟩ => ⟨S100x64, .f32⟩
  | .hbm, ⟨38, _⟩ => ⟨S100x64, .f32⟩
  | .hbm, ⟨39, _⟩ => ⟨S100x64, .f32⟩
  | .hbm, ⟨40, _⟩ => ⟨S100x64, .f32⟩
  | .hbm, ⟨41, _⟩ => ⟨S_, .f32⟩
  | .hbm, ⟨42, _⟩ => ⟨S100x1, .f32⟩
  | .hbm, ⟨43, _⟩ => ⟨S100x1, .f32⟩
  | .hbm, ⟨44, _⟩ => ⟨S_, .f32⟩
  | .hbm, ⟨45, _⟩ => ⟨S100x1, .f32⟩
  | .hbm, ⟨46, _⟩ => ⟨S100x1, .f32⟩
  | .hbm, ⟨47, _⟩ => ⟨S100x64, .f32⟩
  | .hbm, ⟨48, _⟩ => ⟨S100x64, .f32⟩
  | .hbm, ⟨49, _⟩ => ⟨S100x64, .f32⟩
  | .hbm, ⟨50, _⟩ => ⟨S1x64, .f32⟩
  | .hbm, ⟨51, _⟩ => ⟨S1x64, .f32⟩
  | .hbm, ⟨52, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x1, .i32⟩
  | .local _ .vmem, ⟨12, _⟩ => ⟨S10000x1, .i32⟩
  | .local _ .vmem, ⟨13, _⟩ => ⟨S100x64, .f32⟩
  | .local _ .vmem, ⟨14, _⟩ => ⟨S10000x64, .f32⟩
  | .local _ .vmem, ⟨15, _⟩ => ⟨S10000x64, .f32⟩
  | .local _ .vmem, ⟨16, _⟩ => ⟨S10000x1, .i32⟩
  | .local _ .vmem, ⟨17, _⟩ => ⟨S10000x1, .i32⟩
  | .local _ .vmem, ⟨18, _⟩ => ⟨S100x64, .f32⟩
  | .local _ .vmem, ⟨19, _⟩ => ⟨S100x64, .f32⟩
  | .local _ .vmem, ⟨20, _⟩ => ⟨S10000x64, .f32⟩
  | .local _ .vmem, ⟨21, _⟩ => ⟨S10000x64, .f32⟩
  | .local _ .vmem, ⟨22, _⟩ => ⟨S10000x1, .i32⟩
  | .local _ .vmem, ⟨23, _⟩ => ⟨S10000x1, .i32⟩
  | .local _ .vmem, ⟨24, _⟩ => ⟨S100x64, .f32⟩
  | .local _ .vmem, ⟨25, _⟩ => ⟨S100x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S100x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S100x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  slices_S2x1200000_S1x1200000_0_0 : S2x1200000.Slices ![0, 0] S1x1200000
  bcast_S_S100000x64 : S_.BroadcastsInDim S100000x64 (![] : Fin 0 → Fin S100000x64.rank)
  shapeCasts_S100000_S100000x1 : S100000.ShapeCasts S100000x1
  shapeCasts_S100_S100x1 : S100.ShapeCasts S100x1
  inb_S100x64_S100x64_0_0 : ∀ a, (![0, 0] : Fin 2 → Nat) a + S100x64.size a ≤ S100x64.size a
  h_S100x64 : 0 < S100x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x100_d1_w32 : S10000x100.Iotas .tc 32 [1]
  broadcasts_S10000x1_S10000x100 : S10000x1.Broadcasts S10000x100
  natLt_1_32 : 1 < 32
  shapeCasts_S100x64_S100x64 : S100x64.ShapeCasts S100x64
  bcast_S100x1_S100x64_0_1 : S100x1.BroadcastsInDim S100x64 (![0, 1] : Fin 2 → Fin S100x64.rank)
  bcast_S_S100x1 : S_.BroadcastsInDim S100x1 (![] : Fin 0 → Fin S100x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x100_S10000x64_S100x64_0_0_1_1_n_n_wf : DotDims.WF S10000x100 S10000x64 S100x64 [0] [0] [1] [1] [] []
  dot_S10000x100_S100x64_S10000x64_1_0_0_1_n_n_wf : DotDims.WF S10000x100 S100x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .i32 = 32 ∨ (Rect.block (s := S100000x1) S10000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x64.size a ≤ S100x64.size a
  hwx1_2 : ∀ i : grid1.Coords, EltTy.bits .f32 = 32 ∨ (Rect.block (s := S100x64) S100x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .i32 = 32 ∨ (Rect.block (s := S100000x1) S10000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x64.size a ≤ S100x64.size a
  hwx2_2 : ∀ i : grid2.Coords, EltTy.bits .f32 = 32 ∨ (Rect.block (s := S100x64) S100x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S100x64.size a ≤ S100x64.size a
  hwx2_3 : ∀ i : grid2.Coords, EltTy.bits .f32 = 32 ∨ (Rect.block (s := S100x64) S100x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100x64.size a ≤ S100x64.size a
  hwx3_2 : ∀ i : grid3.Coords, EltTy.bits .f32 = 32 ∨ (Rect.block (s := S100x64) S100x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S100x64.size a ≤ S100x64.size a
  hwx3_3 : ∀ i : grid3.Coords, EltTy.bits .f32 = 32 ∨ (Rect.block (s := S100x64) S100x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x100_S10000x64_S100x64_0_0_1_1_n_n : DotDims S10000x100 S10000x64 S100x64 where
  lhsContracting := [0]
  rhsContracting := [0]
  lhsNonContracting := [1]
  rhsNonContracting := [1]
  lhsBatch := []
  rhsBatch := []
  wf := dot_S10000x100_S10000x64_S100x64_0_0_1_1_n_n_wf
def dot_S10000x100_S100x64_S10000x64_1_0_0_1_n_n : DotDims S10000x100 S100x64 S10000x64 where
  lhsContracting := [1]
  rhsContracting := [0]
  lhsNonContracting := [0]
  rhsNonContracting := [1]
  lhsBatch := []
  rhsBatch := []
  wf := dot_S10000x100_S100x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S100x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S100x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S100x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S100x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S100x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v36) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000x1 : Shape := ⟨2, ![1200000, 1]⟩
abbrev S100000 : Shape := ⟨1, ![100000]⟩
abbrev S100 : Shape := ⟨1, ![100]⟩
abbrev S64x64 : Shape := ⟨2, ![64, 64]⟩
abbrev S64 : Shape := ⟨1, ![64]⟩
abbrev S_ : Shape := ⟨0, ![]⟩
abbrev S1x1200000 : Shape := ⟨2, ![1, 1200000]⟩
abbrev S1200000 : Shape := ⟨1, ![1200000]⟩
abbrev S1200000x64 : Shape := ⟨2, ![1200000, 64]⟩
abbrev S100x1 : Shape := ⟨2, ![100, 1]⟩
abbrev S100x64 : Shape := ⟨2, ![100, 64]⟩
abbrev S100000x1 : Shape := ⟨2, ![100000, 1]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1200000, .i32⟩
  | .hbm, ⟨3, _⟩ => ⟨S1200000x1, .f32⟩
  | .hbm, ⟨4, _⟩ => ⟨S100000, .i32⟩
  | .hbm, ⟨5, _⟩ => ⟨S100, .i32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S100000x64, .f32⟩
  | .hbm, ⟨13, _⟩ => ⟨S100000x64, .f32⟩
  | .hbm, ⟨14, _⟩ => ⟨S_, .f32⟩
  | .hbm, ⟨15, _⟩ => ⟨S100000x64, .f32⟩
  | .hbm, ⟨16, _⟩ => ⟨S100000x64, .i1⟩
  | .hbm, ⟨17, _⟩ => ⟨S_, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S64x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .i1⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S1x1200000, .i32⟩
  | .hbm, ⟨33, _⟩ => ⟨S1200000, .i32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S1200000x64, .f32⟩
  | .hbm, ⟨44, _⟩ => ⟨S1200000x64, .f32⟩
  | .hbm, ⟨45, _⟩ => ⟨S1x1200000, .i32⟩
  | .hbm, ⟨46, _⟩ => ⟨S1200000, .i32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | .hbm, ⟨51, _⟩ => ⟨S100, .f32⟩
  | .hbm, ⟨52, _⟩ => ⟨S100x1, .f32⟩
  | .hbm, ⟨53, _⟩ => ⟨S_, .f32⟩
  | .hbm, ⟨54, _⟩ => ⟨S100x64, .f32⟩
  | .hbm, ⟨55, _⟩ => ⟨S100000x1, .i32⟩
  | .hbm, ⟨56, _⟩ => ⟨S100x64, .f32⟩
  | .hbm, ⟨57, _⟩ => ⟨S100x64, .f32⟩
  | .hbm, ⟨58, _⟩ => ⟨S100x64, .f32⟩
  | .hbm, ⟨59, _⟩ => ⟨S_, .i32⟩
  | .hbm, ⟨60, _⟩ => ⟨S100000, .i32⟩
  | .hbm, ⟨61, _⟩ => ⟨S100000, .i1⟩
  | .hbm, ⟨62, _⟩ => ⟨S_, .i32⟩
  | .hbm, ⟨63, _⟩ => ⟨S100000, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100x64, .f32⟩
  | .hbm, ⟨72, _⟩ => ⟨S100000x1, .i32⟩
  | .hbm, ⟨73, _⟩ => ⟨S100x64, .f32⟩
  | .hbm, ⟨74, _⟩ => ⟨S_, .f32⟩
  | .hbm, ⟨75, _⟩ => ⟨S100x1, .f32⟩
  | .hbm, ⟨76, _⟩ => ⟨S100x1, .f32⟩
  | .hbm, ⟨77, _⟩ => ⟨S_, .f32⟩
  | .hbm, ⟨78, _⟩ => ⟨S100x1, .f32⟩
  | .hbm, ⟨79, _⟩ => ⟨S100x1, .f32⟩
  | .hbm, ⟨80, _⟩ => ⟨S100x64, .f32⟩
  | .hbm, ⟨81, _⟩ => ⟨S100x64, .f32⟩
  | .hbm, ⟨82, _⟩ => ⟨S100x64, .f32⟩
  | .hbm, ⟨83, _⟩ => ⟨S_, .i32⟩
  | .hbm, ⟨84, _⟩ => ⟨S100000, .i32⟩
  | .hbm, ⟨85, _⟩ => ⟨S100000, .i1⟩
  | .hbm, ⟨86, _⟩ => ⟨S_, .i32⟩
  | .hbm, ⟨87, _⟩ => ⟨S100000, .i32⟩
  | .hbm, ⟨88, _⟩ => ⟨S100000, .i32⟩
  | .hbm, ⟨89, _⟩ => ⟨S100000, .i32⟩
  | .hbm, ⟨90, _⟩ => ⟨S100000x1, .i32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  transposes_S64x64_S64x64_1_0 : S64x64.Transposes [1, 0] S64x64
  bcast_S_S100000x64 : S_.BroadcastsInDim S100000x64 (![] : Fin 0 → Fin S100000x64.rank)
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  slices_S2x1200000_S1x1200000_0_0 : S2x1200000.Slices ![0, 0] S1x1200000
  bcast_S100_S100x1_0 : S100.BroadcastsInDim S100x1 (![0] : Fin 1 → Fin S100x1.rank)
  bcast_S_S100x64 : S_.BroadcastsInDim S100x64 (![] : Fin 0 → Fin S100x64.rank)
  bcast_S100000_S100000x1_0 : S100000.BroadcastsInDim S100000x1 (![0] : Fin 1 → Fin S100000x1.rank)
  bcast_S100x1_S100x64_0_1 : S100x1.BroadcastsInDim S100x64 (![0, 1] : Fin 2 → Fin S100x64.rank)
  bcast_S_S100000 : S_.BroadcastsInDim S100000 (![] : Fin 0 → Fin S100000.rank)
  bcast_S_S100x1 : S_.BroadcastsInDim S100x1 (![] : Fin 0 → Fin S100x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100x64_S100000x1_S100000x64_1_0_0_1_wf : ScatterDims.WF S100x64 S100000x1 S100000x64 [1] [0] [0] 1
  gather_S100x64_S100000x1_S100000x64_1_0_n_n_0_1_164_wf : GatherDims.WF S100x64 S100000x1 S100000x64 [1] [0] [] [0] [] 1 ![1, 64]

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf

class Facts : Prop extends Facts₀ where

variable [Facts]
-- ==== Proof.RefRead.lean ====
/-
  The reference's run and its stages read at an index: the generated modules, brought in for the hand modules that
  state what each stage holds.
-/
import proofs.«140284_j83322365542770_1_alg».proof.Proof.Gen.ReferenceIdeal.Run
import proofs.«140284_j83322365542770_1_alg».proof.Proof.Gen.ReferenceIdeal.Read
-- ==== Proof.PreRange.lean ====
/-
  The added conjunct of the precondition read back: the precondition is a chain of conjunctions whose last is
  "every node's graph word is at least 0 and below 100, signed"; at every node both compares came out true.
-/
import proofs.«140284_j83322365542770_1_alg».proof.Defs
import Idealize.ShloMosaic.Lib.ReduceAll
import Idealize.ShloMosaic.Lib.ValueIdx

set_option maxRecDepth 16384

noncomputable section

namespace Cert.GN

open Idealize.ShloMosaic Idealize.ShloMosaic.TcCoe Idealize.SL.Sem Idealize.ShloMosaic.ValueIdx

/-- The precondition's last conjunct, read back: every node's graph word, read signed, is a graph number. -/
theorem batch_inRange [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 100000) :
    0 ≤ ((m ((c.tc : Thread Cert.KernelIdeal.nD Cert.KernelIdeal.τ).loc Cert.KernelIdeal.main_arg4) : IVec Cert.KernelIdeal.S100000 32) (ix1 n)).toInt
      ∧ ((m ((c.tc : Thread Cert.KernelIdeal.nD Cert.KernelIdeal.τ).loc Cert.KernelIdeal.main_arg4) : IVec Cert.KernelIdeal.S100000 32) (ix1 n)).toInt < 100 := by
  have h1 := congrFun (h c) ix0
  dsimp only [Cert.Pre_finite_inputs.fn, Cert.Pre_finite_inputs.fn_part1, Cert.Pre_finite_inputs.fn_part2] at h1
  have h2 := (IntOp.andi_eq_one.1 h1).2
  haveI : Subsingleton Cert.Pre_finite_inputs.S_.Idx := ⟨fun a b => funext fun d => d.elim0⟩
  have h3 := Host.reduce_andi_all _ _ _ _ _ h2 (ix1 n)
  obtain ⟨h4, h5⟩ := IntOp.andi_eq_one.1 h3
  have h6 := IntOp.cmpi_sge.1 h4
  have h7 := IntOp.cmpi_slt.1 h5
  have h6' : (0#32 : BitVec 32).toInt ≤ _ := h6
  have h7' : _ < (100#32 : BitVec 32).toInt := h7
  rw [show (0#32 : BitVec 32).toInt = 0 from by decide] at h6'
  rw [show (100#32 : BitVec 32).toInt = 100 from by decide] at h7'
  exact ⟨h6', h7'⟩

end Cert.GN

end
-- ==== Proof.Spec.lean ====
/-
  The mathematics both programs compute, written once over plain index types, and the three facts about sums that
  join the kernel's arrangement of it to the reference's.

  A node's row of the feature transform: h = L(L(x + s·A)·B)·C with L the leaky rectifier (the value where it is at
  least zero, else a fixed slope times it) and A, B, C the three weight matrices already transposed.

  The graph statistics go through the one-hot weight of a node's graph word against a graph number g: 1 when the word
  is g, else 0. Summing the weight times a table's row over g selects the table's row at the node's graph (when the
  word names a graph at all); summing the weight times a node's value over the nodes is the sum over the nodes of
  graph g, which is what a segment sum adds up. The nodes are visited in ten blocks of ten thousand.
-/
import Idealize.ShloMosaic.PureOps.Ideal
import Idealize.ShloMosaic.Lib.ValueIdx
import Idealize.ShloMosaic.Lib.StableHlo.Predicate
import Mathlib.Algebra.BigOperators.Group.Finset.Basic
import Mathlib.Algebra.BigOperators.Fin

noncomputable section

namespace Cert.GN

open Idealize.ShloMosaic Idealize.ShloMosaic.ValueIdx
open scoped BigOperators

/-- The leaky rectifier on one extended real, spelt with the comparison and the select both programs apply:
    `v` where `v ≥ 0`, else the slope word times `v`. -/
def leaky (v : EReal) : EReal :=
  Scalar.select (FloatOps.cmpf (F := Ideal) (φ := .f32) .oge v (Ideal.ofBits .f32 0x00000000#32)) v
    (Ideal.ofBits .f32 0x3C23D70A#32 * v)

/-! ## One node's row of the feature transform -/

section Mlp
variable (xr sr : Fin 64 → EReal) (A B C : (⟨2, ![64, 64]⟩ : Shape).Idx → EReal)

/-- First hidden row: `L(x + s·A)`. -/
def row1 (k : Fin 64) : EReal := leaky (xr k + ∑ q : Fin 64, sr q * A (ix2 q k))
/-- Second hidden row: `L(row1·B)`. -/
def row2 (k : Fin 64) : EReal := leaky (∑ q : Fin 64, row1 xr sr A q * B (ix2 q k))
/-- The transformed row: `row2·C`. -/
def mlpRow (j : Fin 64) : EReal := ∑ q : Fin 64, row2 xr sr A B q * C (ix2 q j)
end Mlp

/-! ## Blocks of nodes -/

/-- Node `r` of block `t`: the ten blocks of ten thousand nodes, in order. -/
def node (t : Fin 10) (r : Fin 10000) : Fin 100000 := ⟨t.val * 10000 + r.val, by have := t.isLt; have := r.isLt; omega⟩

theorem node_val (t : Fin 10) (r : Fin 10000) : (node t r).val = t.val * 10000 + r.val := rfl

/-- Every node is node `r` of block `t` for its quotient and remainder by ten thousand. -/
theorem exists_node (n : Fin 100000) : ∃ t r, n = node t r :=
  ⟨⟨n.val / 10000, by have := n.isLt; omega⟩, ⟨n.val % 10000, Nat.mod_lt _ (by decide)⟩, Fin.ext (by
    show n.val = n.val / 10000 * 10000 + n.val % 10000
    omega)⟩

/-- Blocks and positions in a block, against nodes: quotient and remainder by ten thousand. -/
def blockEquiv : Fin 10 × Fin 10000 ≃ Fin 100000 where
  toFun p := node p.1 p.2
  invFun n := (⟨n.val / 10000, by have := n.isLt; omega⟩, ⟨n.val % 10000, Nat.mod_lt _ (by decide)⟩)
  left_inv := by
    rintro ⟨t, r⟩
    have ht := t.isLt
    have hr := r.isLt
    refine Prod.ext (Fin.ext ?_) (Fin.ext ?_)
    · show (t.val * 10000 + r.val) / 10000 = t.val
      omega
    · show (t.val * 10000 + r.val) % 10000 = r.val
      omega
  right_inv := by
    intro n
    refine Fin.ext ?_
    show n.val / 10000 * 10000 + n.val % 10000 = n.val
    omega

/-- A sum over the nodes is the sum over the blocks of the sums over each block's nodes. -/
theorem sum_blocks (F : Fin 100000 → EReal) : ∑ n : Fin 100000, F n = ∑ t : Fin 10, ∑ r : Fin 10000, F (node t r) := by
  rw [← Equiv.sum_comp blockEquiv F, Fintype.sum_prod_type]
  rfl

/-! ## The one-hot weight -/

/-- The weight of a graph word against graph number `g`: 1 when the word is `g`, else 0. -/
def oh (w : BitVec 32) (g : Fin 100) : EReal := if w = BitVec.ofNat 32 g.val then 1 else 0

/-- The weighted sum of a table's column `f` over the graphs: the table's entry at the word's graph, if it names one. -/
def ohSel (w : BitVec 32) (M : (⟨2, ![100, 64]⟩ : Shape).Idx → EReal) (f : Fin 64) : EReal :=
  ∑ g : Fin 100, oh w g * M (ix2 g f)

/-- The weighted sum of values over `R` nodes against graph `g`. -/
def ohSeg {R : Nat} (bt : Fin R → BitVec 32) (v : Fin R → EReal) (g : Fin 100) : EReal := ∑ r : Fin R, oh (bt r) g * v r

/-- A word is the word of a graph number exactly when its signed value is that number. -/
theorem toInt_eq_iff (w : BitVec 32) (g : Nat) (hg : g < 100) : w.toInt = (g : ℤ) ↔ w = BitVec.ofNat 32 g := by
  constructor
  · intro h
    apply BitVec.eq_of_toNat_eq
    rw [BitVec.toNat_ofNat]
    have hlt := w.isLt
    rw [BitVec.toInt_eq_toNat_cond] at h
    split at h <;> omega
  · rintro rfl
    exact StableHlo.Predicate.toInt_ofNat_small g (by omega)

/-- A word whose signed value is a graph number selects that graph's entry: every other term of the sum is zero. -/
theorem ohSel_of_inRange (w : BitVec 32) (h0 : 0 ≤ w.toInt) (h1 : w.toInt < 100)
    (M : (⟨2, ![100, 64]⟩ : Shape).Idx → EReal) (f : Fin 64) :
    ohSel w M f = M (ix2 (⟨w.toInt.toNat, by omega⟩ : Fin 100) f) := by
  unfold ohSel
  rw [Finset.sum_eq_single (⟨w.toInt.toNat, by omega⟩ : Fin 100)]
  · have hw : w = BitVec.ofNat 32 w.toInt.toNat := (toInt_eq_iff w w.toInt.toNat (by omega)).mp (by omega)
    unfold oh
    rw [if_pos hw, one_mul]
  · intro g _ hne
    have hw : ¬ w = BitVec.ofNat 32 g.val := fun h => hne (Fin.ext (by
      have := (toInt_eq_iff w g.val g.isLt).mpr h
      show g.val = w.toInt.toNat
      omega))
    unfold oh
    rw [if_neg hw, zero_mul]
  · intro h
    exact absurd (Finset.mem_univ _) h

/-- The weighted sum over nodes is the plain sum over the nodes whose word, read signed, is `g`. -/
theorem ohSeg_eq_filter {R : Nat} (bt : Fin R → BitVec 32) (v : Fin R → EReal) (g : Fin 100) :
    ohSeg bt v g = ∑ r ∈ Finset.univ.filter (fun r : Fin R => (bt r).toInt = (g.val : ℤ)), v r := by
  unfold ohSeg
  rw [Finset.sum_filter]
  refine Finset.sum_congr rfl fun r _ => ?_
  unfold oh
  by_cases h : bt r = BitVec.ofNat 32 g.val
  · rw [if_pos h, if_pos ((toInt_eq_iff (bt r) g.val g.isLt).mpr h), one_mul]
  · rw [if_neg h, if_neg (fun h' => h ((toInt_eq_iff (bt r) g.val g.isLt).mp h')), zero_mul]

end Cert.GN

end
-- ==== Proof.KNames.lean ====
import proofs.«140284_j83322365542770_1_alg».proof.Proof.Gen.KernelIdeal.Frame
import proofs.«140284_j83322365542770_1_alg».proof.Proof.Spec
import Idealize.ShloMosaic.Lib.Pipeline.Value

set_option maxRecDepth 16384

noncomputable section

namespace Cert.KernelIdeal.GN

open Idealize.ShloMosaic Idealize.ShloMosaic.TcCoe Idealize.SL.Sem Idealize.ShloMosaic.ValueIdx
open Idealize.ShloMosaic.Pipeline (Dat)
open Cert.KernelIdeal Cert.KernelIdeal.Gen Cert.GN
open scoped BigOperators

/-! The arrays a kernel region finds when it is entered, each named at its literal type (the contents `V` of the
    core's buffers at the region's entry are a parameter: every region's value is stated at any `V`). -/

variable (V : (c : Dev nD) → (b : Ref sig .tc) → Buf (Elt Ideal) ((c : Thread nD τ).loc b))

/-- The node features `x` and the states `s`. -/
abbrev xArr (c : Dev nD) : S100000x64.Idx → EReal := V c main_arg0
abbrev sArr (c : Dev nD) : S100000x64.Idx → EReal := V c main_arg1
/-- The three weight matrices, transposed by the host before the first kernel. -/
abbrev wA (c : Dev nD) : S64x64.Idx → EReal := V c main_v0
abbrev wB (c : Dev nD) : S64x64.Idx → EReal := V c main_v1
abbrev wC (c : Dev nD) : S64x64.Idx → EReal := V c main_v2
/-- The aggregated messages, one row a node. -/
abbrev aggArr (c : Dev nD) : S100000x64.Idx → EReal := V c main_v19
/-- The nodes' graph words, as a column. -/
abbrev bCol (c : Dev nD) : S100000x1.Idx → BitVec 32 := V c main_v20
/-- The per-graph means and deviations. -/
abbrev muArr (c : Dev nD) : S100x64.Idx → EReal := V c main_v25
abbrev sgArr (c : Dev nD) : S100x64.Idx → EReal := V c main_v33
/-- The scale and shift rows. -/
abbrev gamRow (c : Dev nD) : S1x64.Idx → EReal := V c main_v34
abbrev betRow (c : Dev nD) : S1x64.Idx → EReal := V c main_v35

/-- The four result arrays, each as its region's pipeline leaves it. -/
abbrev hOut (c : Dev nD) : S100000x64.Idx → EReal := (dat0 (F := Ideal) V c).arrAt 5 cfg0.N
abbrev muSumOut (c : Dev nD) : S100x64.Idx → EReal := (dat1 (F := Ideal) V c).arrAt 2 cfg1.N
abbrev varSumOut (c : Dev nD) : S100x64.Idx → EReal := (dat2 (F := Ideal) V c).arrAt 3 cfg2.N
abbrev normOut (c : Dev nD) : S100000x64.Idx → EReal := (dat3 (F := Ideal) V c).arrAt 6 cfg3.N

/-- A node's centred value at feature `f`: its aggregate less the one-hot selection of the means. -/
def centred (c : Dev nD) (n : Fin 100000) (f : Fin 64) : EReal :=
  aggArr V c (ix2 n f) - ohSel (bCol V c (ix2 n 0)) (muArr V c) f

end Cert.KernelIdeal.GN

end
-- ==== Proof.KChain.lean ====
/-
  What each kernel region finds when it is entered, named: the host operations between the regions computed it from
  the arrays the regions before it left and from the arguments, and nothing a later stretch or region does not write
  changes. The aggregation of the messages (a gather of the transformed rows by each edge's source, the scaling by
  the edge weights, a scatter-add by each edge's destination), the per-graph mean (the sums over the counts) and the
  per-graph deviation (the square root of the sums of squares over the counts less one, at least one) are each ONE
  host function of the array before it; the graph words, the counts and the scale and shift rows are the arguments
  reshaped.
-/
import proofs.«140284_j83322365542770_1_alg».proof.Proof.Gen.KernelIdeal.Frame
import proofs.«140284_j83322365542770_1_alg».proof.Proof.Spec
import proofs.«140284_j83322365542770_1_alg».proof.Proof.KNames
import Idealize.ShloMosaic.Lib.StableHlo.Run

set_option maxRecDepth 16384

noncomputable section

namespace Cert.KernelIdeal.GN

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.GN

/-! ## The host functions -/

/-- A weight matrix transposed. -/
def transposed (w : FVec Ideal S64x64 .f32) : FVec Ideal S64x64 .f32 := transpose S64x64 [1, 0] w transposes_S64x64_S64x64_1_0

/-- The message aggregation: row `n` is the sum, over the edges whose destination is `n`, of the edge's weight times
    the transformed row of the edge's source (a negative source counting from the end). -/
def aggOf (h : FVec Ideal S100000x64 .f32) (ei : IVec S2x1200000 32) (w : FVec Ideal S1200000x1 .f32) : FVec Ideal S100000x64 .f32 :=
  Host.scatterAdd (F := Ideal) scatter_S100000x64_S1200000x1_S1200000x64_1_0_0_1
    (broadcastInDim S100000x64 ![] bcast_S_S100000x64 (constant (F := Ideal) S_ .f32 0#32))
    (broadcastInDim S1200000x1 ![0] bcast_S1200000_S1200000x1_0
      (shapeCast S1200000 (extractStridedSlice S1x1200000 ![0, 0] ei slices_S2x1200000_S1x1200000_0_0) shapeCasts_S1x1200000_S1200000))
    (mulf (broadcastInDim S1200000x64 ![0, 1] bcast_S1200000x1_S1200000x64_0_1 w)
      (Host.gather gather_S100000x64_S1200000x1_S1200000x64_1_0_n_n_0_1_164 h
        (broadcastInDim S1200000x1 ![0] bcast_S1200000_S1200000x1_0
          (select
            (cmpi .slt
              (shapeCast S1200000 (extractStridedSlice S1x1200000 ![1, 0] ei slices_S2x1200000_S1x1200000_1_0) shapeCasts_S1x1200000_S1200000)
              (broadcastInDim S1200000 ![] bcast_S_S1200000 (constantI S_ 32 0#32)))
            (addi
              (shapeCast S1200000 (extractStridedSlice S1x1200000 ![1, 0] ei slices_S2x1200000_S1x1200000_1_0) shapeCasts_S1x1200000_S1200000)
              (broadcastInDim S1200000 ![] bcast_S_S1200000 (constantI S_ 32 100000#32)))
            (shapeCast S1200000 (extractStridedSlice S1x1200000 ![1, 0] ei slices_S2x1200000_S1x1200000_1_0) shapeCasts_S1x1200000_S1200000)))))

/-- The graph words as a column. -/
def bColOf (b : IVec S100000 32) : IVec S100000x1 32 := shapeCast S100000x1 b shapeCasts_S100000_S100000x1
/-- The graph sizes as a column of floats. -/
def cntOf (bn : IVec S100 32) : FVec Ideal S100x1 .f32 := shapeCast S100x1 (sitofp (F := Ideal) .f32 bn) shapeCasts_S100_S100x1
/-- The sums over a column of counts. -/
def muOver (s : FVec Ideal S100x64 .f32) (cnt : FVec Ideal S100x1 .f32) : FVec Ideal S100x64 .f32 :=
  Host.divf (F := Ideal) s (broadcastInDim S100x64 ![0, 1] bcast_S100x1_S100x64_0_1 cnt)
/-- The per-graph means: the sums over the counts. -/
def muOf (s : FVec Ideal S100x64 .f32) (bn : IVec S100 32) : FVec Ideal S100x64 .f32 := muOver s (cntOf bn)
/-- The per-graph deviations: the square root of the sums of squares over "the count less one, at least one". -/
def sgOver (s : FVec Ideal S100x64 .f32) (cnt : FVec Ideal S100x1 .f32) : FVec Ideal S100x64 .f32 :=
  Host.sqrt (F := Ideal) (Host.divf (F := Ideal) s (broadcastInDim S100x64 ![0, 1] bcast_S100x1_S100x64_0_1
    (maximumf (subf cnt (broadcastInDim S100x1 ![] bcast_S_S100x1 (constant (F := Ideal) S_ .f32 1065353216#32)))
      (broadcastInDim S100x1 ![] bcast_S_S100x1 (constant (F := Ideal) S_ .f32 1065353216#32)))))
def sgOf (s : FVec Ideal S100x64 .f32) (bn : IVec S100 32) : FVec Ideal S100x64 .f32 := sgOver s (cntOf bn)
/-- A feature vector as a one-row array. -/
def rowOf (v : FVec Ideal S64 .f32) : FVec Ideal S1x64 .f32 := shapeCast S1x64 v shapeCasts_S64_S1x64

variable (m : (ℓ : Loc nD τ sig) → Buf (Elt Ideal) ℓ) (ρ : Dev nD → PrngReg)

/-- The launch contents of the arguments, by name. -/
abbrev aX (c : Dev nD) : FVec Ideal S100000x64 .f32 := m ((c : Thread nD τ).loc main_arg0)
abbrev aS (c : Dev nD) : FVec Ideal S100000x64 .f32 := m ((c : Thread nD τ).loc main_arg1)
abbrev aEi (c : Dev nD) : IVec S2x1200000 32 := m ((c : Thread nD τ).loc main_arg2)
abbrev aW (c : Dev nD) : FVec Ideal S1200000x1 .f32 := m ((c : Thread nD τ).loc main_arg3)
abbrev aB (c : Dev nD) : IVec S100000 32 := m ((c : Thread nD τ).loc main_arg4)
abbrev aBn (c : Dev nD) : IVec S100 32 := m ((c : Thread nD τ).loc main_arg5)
abbrev aWs (c : Dev nD) : FVec Ideal S64x64 .f32 := m ((c : Thread nD τ).loc main_arg6)
abbrev aW1 (c : Dev nD) : FVec Ideal S64x64 .f32 := m ((c : Thread nD τ).loc main_arg7)
abbrev aW2 (c : Dev nD) : FVec Ideal S64x64 .f32 := m ((c : Thread nD τ).loc main_arg8)
abbrev aGam (c : Dev nD) : FVec Ideal S64 .f32 := m ((c : Thread nD τ).loc main_arg9)
abbrev aBet (c : Dev nD) : FVec Ideal S64 .f32 := m ((c : Thread nD τ).loc main_arg10)

/-- A stretch of host operations leaves a buffer none of them writes as it found it. -/
macro "host_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Region 0's entry: the arguments and the transposed weights -/

theorem in0_x (c : Dev nD) : xArr (V1 m ρ) c = aX m c := by
  show StableHlo.after hostOps0 (W0 m ρ c) (Proc.devRef .tc main_arg0) = _
  exact (by host_keeps : StableHlo.after hostOps0 (W0 m ρ c) (Proc.devRef .tc main_arg0) = W0 m ρ c (Proc.devRef .tc main_arg0))
theorem in0_s (c : Dev nD) : sArr (V1 m ρ) c = aS m c := by
  show StableHlo.after hostOps0 (W0 m ρ c) (Proc.devRef .tc main_arg1) = _
  exact (by host_keeps : StableHlo.after hostOps0 (W0 m ρ c) (Proc.devRef .tc main_arg1) = W0 m ρ c (Proc.devRef .tc main_arg1))
theorem in0_A (c : Dev nD) : wA (V1 m ρ) c = transposed (aWs m c) := by
  show StableHlo.after hostOps0 (W0 m ρ c) (Proc.devRef .tc main_v0) = _
  after_results; rfl
theorem in0_B (c : Dev nD) : wB (V1 m ρ) c = transposed (aW1 m c) := by
  show StableHlo.after hostOps0 (W0 m ρ c) (Proc.devRef .tc main_v1) = _
  after_results; rfl
theorem in0_C (c : Dev nD) : wC (V1 m ρ) c = transposed (aW2 m c) := by
  show StableHlo.after hostOps0 (W0 m ρ c) (Proc.devRef .tc main_v2) = _
  after_results; rfl

/-! ## Through the regions and the stretches

A region's result array holds what its pipeline leaves; an array it only reads, and a buffer it does not touch, hold
what they held when it was entered; a stretch of host operations leaves a buffer it does not write alone. -/

/-- An argument no host operation and no region writes is still at its launch contents at region 1's entry's source. -/
theorem w2_ei (c : Dev nD) : W2 m ρ c (Proc.devRef .tc main_arg2) = aEi m c :=
  (W2_of_ne m ρ c main_arg2 (by decide)).trans (by host_keeps : StableHlo.after hostOps0 (W0 m ρ c) (Proc.devRef .tc main_arg2) = W0 m ρ c (Proc.devRef .tc main_arg2))
theorem w2_w (c : Dev nD) : W2 m ρ c (Proc.devRef .tc main_arg3) = aW m c :=
  (W2_of_ne m ρ c main_arg3 (by decide)).trans (by host_keeps : StableHlo.after hostOps0 (W0 m ρ c) (Proc.devRef .tc main_arg3) = W0 m ρ c (Proc.devRef .tc main_arg3))
theorem w2_b (c : Dev nD) : W2 m ρ c (Proc.devRef .tc main_arg4) = aB m c :=
  (W2_of_ne m ρ c main_arg4 (by decide)).trans (by host_keeps : StableHlo.after hostOps0 (W0 m ρ c) (Proc.devRef .tc main_arg4) = W0 m ρ c (Proc.devRef .tc main_arg4))
theorem w2_bn (c : Dev nD) : W2 m ρ c (Proc.devRef .tc main_arg5) = aBn m c :=
  (W2_of_ne m ρ c main_arg5 (by decide)).trans (by host_keeps : StableHlo.after hostOps0 (W0 m ρ c) (Proc.devRef .tc main_arg5) = W0 m ρ c (Proc.devRef .tc main_arg5))

/-- Region 0 leaves the transformed features in its result array. -/
theorem out0 (c : Dev nD) : W2 m ρ c (Proc.devRef .tc main_v3) = hOut (V1 m ρ) c := W2_arr m ρ c 5

/-- The aggregate array, as every later region finds it. -/
abbrev AGG (c : Dev nD) : FVec Ideal S100000x64 .f32 := aggOf (hOut (V1 m ρ) c) (aEi m c) (aW m c)

set_option maxHeartbeats 4000000 in
theorem w3_agg (c : Dev nD) : W3 m ρ c (Proc.devRef .tc main_v19) = AGG m ρ c := by
  have e : StableHlo.after hostOps1 (W2 m ρ c) (Proc.devRef .tc main_v19)
      = aggOf (W2 m ρ c (Proc.devRef .tc main_v3)) (W2 m ρ c (Proc.devRef .tc main_arg2)) (W2 m ρ c (Proc.devRef .tc main_arg3)) := by
    after_results_simp <;> rfl
  exact e.trans (by rw [out0 m ρ c, w2_ei m ρ c, w2_w m ρ c])
theorem w3_b (c : Dev nD) : W3 m ρ c (Proc.devRef .tc main_v20) = bColOf (aB m c) := by
  have e : StableHlo.after hostOps1 (W2 m ρ c) (Proc.devRef .tc main_v20) = bColOf (W2 m ρ c (Proc.devRef .tc main_arg4)) := by
    after_results; rfl
  exact e.trans (by rw [w2_b m ρ c])
theorem w3_cnt (c : Dev nD) : W3 m ρ c (Proc.devRef .tc main_v22) = cntOf (aBn m c) := by
  have e : StableHlo.after hostOps1 (W2 m ρ c) (Proc.devRef .tc main_v22) = cntOf (W2 m ρ c (Proc.devRef .tc main_arg5)) := by
    after_results; rfl
  exact e.trans (by rw [w2_bn m ρ c])

theorem out1 (c : Dev nD) : W4 m ρ c (Proc.devRef .tc main_v23) = muSumOut (V3 m ρ) c := W4_arr m ρ c 2
theorem w4_agg (c : Dev nD) : W4 m ρ c (Proc.devRef .tc main_v19) = AGG m ρ c :=
  ((W4_arr m ρ c 0).trans (((dat1 (V3 m ρ) c).arrAt_in 0 rfl _).trans (A_eq1 (V3 m ρ) c 0))).trans (w3_agg m ρ c)
theorem w4_b (c : Dev nD) : W4 m ρ c (Proc.devRef .tc main_v20) = bColOf (aB m c) :=
  ((W4_arr m ρ c 1).trans (((dat1 (V3 m ρ) c).arrAt_in 1 rfl _).trans (A_eq1 (V3 m ρ) c 1))).trans (w3_b m ρ c)
theorem w4_cnt (c : Dev nD) : W4 m ρ c (Proc.devRef .tc main_v22) = cntOf (aBn m c) :=
  (W4_of_ne m ρ c main_v22 (by decide)).trans (w3_cnt m ρ c)

/-- The means, as the later regions find them. -/
abbrev MU (c : Dev nD) : FVec Ideal S100x64 .f32 := muOf (muSumOut (V3 m ρ) c) (aBn m c)

theorem w5_mu (c : Dev nD) : W5 m ρ c (Proc.devRef .tc main_v25) = MU m ρ c := by
  have e : StableHlo.after hostOps2 (W4 m ρ c) (Proc.devRef .tc main_v25)
      = muOver (W4 m ρ c (Proc.devRef .tc main_v23)) (W4 m ρ c (Proc.devRef .tc main_v22)) := by
    after_results; rfl
  exact e.trans (by rw [out1 m ρ c, w4_cnt m ρ c]; rfl)
theorem w5_agg (c : Dev nD) : W5 m ρ c (Proc.devRef .tc main_v19) = AGG m ρ c :=
  (by host_keeps : StableHlo.after hostOps2 (W4 m ρ c) (Proc.devRef .tc main_v19) = W4 m ρ c (Proc.devRef .tc main_v19)).trans (w4_agg m ρ c)
theorem w5_b (c : Dev nD) : W5 m ρ c (Proc.devRef .tc main_v20) = bColOf (aB m c) :=
  (by host_keeps : StableHlo.after hostOps2 (W4 m ρ c) (Proc.devRef .tc main_v20) = W4 m ρ c (Proc.devRef .tc main_v20)).trans (w4_b m ρ c)
theorem w5_cnt (c : Dev nD) : W5 m ρ c (Proc.devRef .tc main_v22) = cntOf (aBn m c) :=
  (by host_keeps : StableHlo.after hostOps2 (W4 m ρ c) (Proc.devRef .tc main_v22) = W4 m ρ c (Proc.devRef .tc main_v22)).trans (w4_cnt m ρ c)

theorem out2 (c : Dev nD) : W6 m ρ c (Proc.devRef .tc main_v26) = varSumOut (V5 m ρ) c := W6_arr m ρ c 3
theorem w6_agg (c : Dev nD) : W6 m ρ c (Proc.devRef .tc main_v19) = AGG m ρ c :=
  ((W6_arr m ρ c 0).trans (((dat2 (V5 m ρ) c).arrAt_in 0 rfl _).trans (A_eq2 (V5 m ρ) c 0))).trans (w5_agg m ρ c)
theorem w6_b (c : Dev nD) : W6 m ρ c (Proc.devRef .tc main_v20) = bColOf (aB m c) :=
  ((W6_arr m ρ c 1).trans (((dat2 (V5 m ρ) c).arrAt_in 1 rfl _).trans (A_eq2 (V5 m ρ) c 1))).trans (w5_b m ρ c)
theorem w6_mu (c : Dev nD) : W6 m ρ c (Proc.devRef .tc main_v25) = MU m ρ c :=
  ((W6_arr m ρ c 2).trans (((dat2 (V5 m ρ) c).arrAt_in 2 rfl _).trans (A_eq2 (V5 m ρ) c 2))).trans (w5_mu m ρ c)
theorem w6_cnt (c : Dev nD) : W6 m ρ c (Proc.devRef .tc main_v22) = cntOf (aBn m c) :=
  (W6_of_ne m ρ c main_v22 (by decide)).trans (w5_cnt m ρ c)
theorem w6_gam (c : Dev nD) : W6 m ρ c (Proc.devRef .tc main_arg9) = aGam m c :=
  (W6_of_ne m ρ c main_arg9 (by decide)).trans ((by host_keeps : StableHlo.after hostOps2 (W4 m ρ c) (Proc.devRef .tc main_arg9) = W4 m ρ c (Proc.devRef .tc main_arg9)).trans
    ((W4_of_ne m ρ c main_arg9 (by decide)).trans ((by host_keeps : StableHlo.after hostOps1 (W2 m ρ c) (Proc.devRef .tc main_arg9) = W2 m ρ c (Proc.devRef .tc main_arg9)).trans
      ((W2_of_ne m ρ c main_arg9 (by decide)).trans (by host_keeps : StableHlo.after hostOps0 (W0 m ρ c) (Proc.devRef .tc main_arg9) = W0 m ρ c (Proc.devRef .tc main_arg9))))))
theorem w6_bet (c : Dev nD) : W6 m ρ c (Proc.devRef .tc main_arg10) = aBet m c :=
  (W6_of_ne m ρ c main_arg10 (by decide)).trans ((by host_keeps : StableHlo.after hostOps2 (W4 m ρ c) (Proc.devRef .tc main_arg10) = W4 m ρ c (Proc.devRef .tc main_arg10)).trans
    ((W4_of_ne m ρ c main_arg10 (by decide)).trans ((by host_keeps : StableHlo.after hostOps1 (W2 m ρ c) (Proc.devRef .tc main_arg10) = W2 m ρ c (Proc.devRef .tc main_arg10)).trans
      ((W2_of_ne m ρ c main_arg10 (by decide)).trans (by host_keeps : StableHlo.after hostOps0 (W0 m ρ c) (Proc.devRef .tc main_arg10) = W0 m ρ c (Proc.devRef .tc main_arg10))))))

/-- The deviations, as the last region finds them. -/
abbrev SG (c : Dev nD) : FVec Ideal S100x64 .f32 := sgOf (varSumOut (V5 m ρ) c) (aBn m c)

theorem w7_sg (c : Dev nD) : W7 m ρ c (Proc.devRef .tc main_v33) = SG m ρ c := by
  have e : StableHlo.after hostOps3 (W6 m ρ c) (Proc.devRef .tc main_v33)
      = sgOver (W6 m ρ c (Proc.devRef .tc main_v26)) (W6 m ρ c (Proc.devRef .tc main_v22)) := by
    after_results; rfl
  exact e.trans (by rw [out2 m ρ c, w6_cnt m ρ c]; rfl)
theorem w7_gam (c : Dev nD) : W7 m ρ c (Proc.devRef .tc main_v34) = rowOf (aGam m c) := by
  have e : StableHlo.after hostOps3 (W6 m ρ c) (Proc.devRef .tc main_v34) = rowOf (W6 m ρ c (Proc.devRef .tc main_arg9)) := by
    after_results; rfl
  exact e.trans (by rw [w6_gam m ρ c])
theorem w7_bet (c : Dev nD) : W7 m ρ c (Proc.devRef .tc main_v35) = rowOf (aBet m c) := by
  have e : StableHlo.after hostOps3 (W6 m ρ c) (Proc.devRef .tc main_v35) = rowOf (W6 m ρ c (Proc.devRef .tc main_arg10)) := by
    after_results; rfl
  exact e.trans (by rw [w6_bet m ρ c])
theorem w7_agg (c : Dev nD) : W7 m ρ c (Proc.devRef .tc main_v19) = AGG m ρ c :=
  (by host_keeps : StableHlo.after hostOps3 (W6 m ρ c) (Proc.devRef .tc main_v19) = W6 m ρ c (Proc.devRef .tc main_v19)).trans (w6_agg m ρ c)
theorem w7_b (c : Dev nD) : W7 m ρ c (Proc.devRef .tc main_v20) = bColOf (aB m c) :=
  (by host_keeps : StableHlo.after hostOps3 (W6 m ρ c) (Proc.devRef .tc main_v20) = W6 m ρ c (Proc.devRef .tc main_v20)).trans (w6_b m ρ c)
theorem w7_mu (c : Dev nD) : W7 m ρ c (Proc.devRef .tc main_v25) = MU m ρ c :=
  (by host_keeps : StableHlo.after hostOps3 (W6 m ρ c) (Proc.devRef .tc main_v25) = W6 m ρ c (Proc.devRef .tc main_v25)).trans (w6_mu m ρ c)

/-- The last region leaves the normalized rows in the result array. -/
theorem out3 (c : Dev nD) : W8 m ρ c (Proc.devRef .tc main_v36) = normOut (V7 m ρ) c := W8_arr m ρ c 6

/-! ## The same, as each region's named entry arrays -/

theorem agg3 (c : Dev nD) : aggArr (V3 m ρ) c = AGG m ρ c := w3_agg m ρ c
theorem b3 (c : Dev nD) : bCol (V3 m ρ) c = bColOf (aB m c) := w3_b m ρ c
theorem agg5 (c : Dev nD) : aggArr (V5 m ρ) c = AGG m ρ c := w5_agg m ρ c
theorem b5 (c : Dev nD) : bCol (V5 m ρ) c = bColOf (aB m c) := w5_b m ρ c
theorem mu5 (c : Dev nD) : muArr (V5 m ρ) c = MU m ρ c := w5_mu m ρ c
theorem agg7 (c : Dev nD) : aggArr (V7 m ρ) c = AGG m ρ c := w7_agg m ρ c
theorem b7 (c : Dev nD) : bCol (V7 m ρ) c = bColOf (aB m c) := w7_b m ρ c
theorem mu7 (c : Dev nD) : muArr (V7 m ρ) c = MU m ρ c := w7_mu m ρ c
theorem sg7 (c : Dev nD) : sgArr (V7 m ρ) c = SG m ρ c := w7_sg m ρ c
theorem gam7 (c : Dev nD) : gamRow (V7 m ρ) c = rowOf (aGam m c) := w7_gam m ρ c
theorem bet7 (c : Dev nD) : betRow (V7 m ρ) c = rowOf (aBet m c) := w7_bet m ρ c

end Cert.KernelIdeal.GN

end
-- ==== Proof.KReg0.lean ====
/-
  The first kernel's array: row n of the result is the feature transform of row n of x and of the states, whatever
  block of ten thousand rows the node falls in (each grid point transforms its own block of rows, and the blocks tile
  the array).
-/
import proofs.«140284_j83322365542770_1_alg».proof.Proof.Gen.KernelIdeal.Frame
import proofs.«140284_j83322365542770_1_alg».proof.Proof.Spec
import Idealize.ShloMosaic.Lib.Pipeline.Value
import Idealize.ShloMosaic.PureOps.Ideal.Laws
import proofs.«140284_j83322365542770_1_alg».proof.Proof.KNames

set_option maxRecDepth 16384

noncomputable section

namespace Cert.KernelIdeal.GN

open Idealize.ShloMosaic Idealize.ShloMosaic.TcCoe Idealize.SL.Sem Idealize.ShloMosaic.ValueIdx
open Idealize.ShloMosaic.Pipeline (Dat)
open Cert.KernelIdeal Cert.KernelIdeal.Gen Cert.GN
open scoped BigOperators

variable (V : (c : Dev nD) → (b : Ref sig .tc) → Buf (Elt Ideal) ((c : Thread nD τ).loc b))

namespace Reg0

/-! ## The matrix product of a block of rows with a weight matrix, read at an index -/

theorem lhs_mm_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_mm_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_mm_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_mm_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of rows times a weight matrix, accumulated into zero: at row `r`, column `j` the sum over the shared
    axis of the row's entries times the matrix's column. -/
theorem mm_apply {φ₁ φ₂ : FTy} (a : FVec Ideal S10000x64 φ₁) (b : FVec Ideal S64x64 φ₂) (r : Fin 10000) (j : Fin 64) :
    matmul dot_S10000x64_S64x64_S10000x64_1_0_0_1_n_n none a b (constant (F := Ideal) S10000x64 .f32 0x00000000#32) (ix2 r j)
      = ∑ q : Fin 64, a (ix2 r q) * b (ix2 q j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r j) ((ValueIdx.contrEquiv1 dot_S10000x64_S64x64_S10000x64_1_0_0_1_n_n 64 rfl rfl).symm k) = ix2 r k := funext fun a => Fin.ext (by
    match a with
    | ⟨0, _⟩ => exact lhs_mm_0 _ _
    | ⟨1, _⟩ => exact (lhs_mm_1 _ _).trans hk)
  have er : dot_S10000x64_S64x64_S10000x64_1_0_0_1_n_n.rhsIdx (ix2 r j) ((ValueIdx.contrEquiv1 dot_S10000x64_S64x64_S10000x64_1_0_0_1_n_n 64 rfl rfl).symm k) = ix2 k j := funext fun a => Fin.ext (by
    match a with
    | ⟨0, _⟩ => exact (rhs_mm_0 _ _).trans hk
    | ⟨1, _⟩ => exact rhs_mm_1 _ _)
  rw [el, er]

/-- The rectifier applied to a block, read at an index, is the rectifier of the entry. -/
theorem leakyVec_apply (v : FVec Ideal S10000x64 .f32) (i : S10000x64.Idx) :
    select (cmpf .oge v (broadcast S10000x64 (Scalar.ofBits (F := Ideal) .f32 0x00000000#32))) v
      (mulf (broadcast S10000x64 (Scalar.ofBits (F := Ideal) .f32 0x3C23D70A#32)) v) i = leaky (v i) := rfl

/-! ## The kernel's payload at an index -/

section Payload
variable (v0 v1 : Vec Ideal S10000x64 .f32) (v3 v14 v24 : Vec Ideal S64x64 .f32)

/-- The first hidden block as the kernel computes it: the rectifier of `x` plus the states times the first matrix. -/
def hid1 : FVec Ideal S10000x64 .f32 :=
  let a := addf v0 (matmul dot_S10000x64_S64x64_S10000x64_1_0_0_1_n_n none (truncf .bf16 v1 bitsLt_bf16_f32)
    (truncf .bf16 (shapeCast S64x64 v3 shapeCasts_S64x64_S64x64) bitsLt_bf16_f32) (constant (F := Ideal) S10000x64 .f32 0x00000000#32))
  select (cmpf .oge a (broadcast S10000x64 (Scalar.ofBits (F := Ideal) .f32 0x00000000#32))) a
    (mulf (broadcast S10000x64 (Scalar.ofBits (F := Ideal) .f32 0x3C23D70A#32)) a)

/-- The second hidden block: the rectifier of the first times the second matrix. -/
def hid2 : FVec Ideal S10000x64 .f32 :=
  let a := matmul dot_S10000x64_S64x64_S10000x64_1_0_0_1_n_n none (truncf .bf16 (hid1 v0 v1 v3) bitsLt_bf16_f32)
    (truncf .bf16 (shapeCast S64x64 v14 shapeCasts_S64x64_S64x64) bitsLt_bf16_f32) (constant (F := Ideal) S10000x64 .f32 0x00000000#32)
  select (cmpf .oge a (broadcast S10000x64 (Scalar.ofBits (F := Ideal) .f32 0x00000000#32))) a
    (mulf (broadcast S10000x64 (Scalar.ofBits (F := Ideal) .f32 0x3C23D70A#32)) a)

/-- The payload is the second hidden block times the third matrix. -/
theorem k0_pay1_eq : k0_pay1 v0 v1 v3 v14 v24
    = matmul dot_S10000x64_S64x64_S10000x64_1_0_0_1_n_n none (truncf .bf16 (hid2 v0 v1 v3 v14) bitsLt_bf16_f32)
        (truncf .bf16 (shapeCast S64x64 v24 shapeCasts_S64x64_S64x64) bitsLt_bf16_f32) (constant (F := Ideal) S10000x64 .f32 0x00000000#32) := rfl

theorem hid1_apply (r : Fin 10000) (k : Fin 64) :
    hid1 v0 v1 v3 (ix2 r k) = row1 (fun k => v0 (ix2 r k)) (fun k => v1 (ix2 r k)) v3 k := by
  unfold hid1
  rw [leakyVec_apply, addf_apply, mm_apply]
  simp only [truncf_apply, shapeCast_self]
  rfl

theorem hid2_apply (r : Fin 10000) (k : Fin 64) :
    hid2 v0 v1 v3 v14 (ix2 r k) = row2 (fun k => v0 (ix2 r k)) (fun k => v1 (ix2 r k)) v3 v14 k := by
  unfold hid2
  rw [leakyVec_apply, mm_apply]
  simp only [truncf_apply, shapeCast_self, hid1_apply]
  rfl

/-- Row `r` of the payload is the feature transform of row `r` of the two blocks. -/
theorem pay0 (r : Fin 10000) (j : Fin 64) :
    k0_pay1 v0 v1 v3 v14 v24 (ix2 r j) = mlpRow (fun k => v0 (ix2 r k)) (fun k => v1 (ix2 r k)) v3 v14 v24 j := by
  rw [k0_pay1_eq, mm_apply]
  simp only [truncf_apply, shapeCast_self, hid2_apply]
  rfl

end Payload

/-! ## From blocks to the array -/

/-- The whole result array: row `n` is the feature transform of row `n` of `x` and of the states. -/
def mlpArr (X S : S100000x64.Idx → EReal) (A B C : S64x64.Idx → EReal) : S100000x64.Idx → EReal := fun i =>
  mlpRow (fun k => X (ix2 (⟨(i 0).val, idx2_lt0 i⟩ : Fin 100000) k)) (fun k => S (ix2 (⟨(i 0).val, idx2_lt0 i⟩ : Fin 100000) k))
    A B C (⟨(i 1).val, idx2_lt1 i⟩ : Fin 64)

/-- A block of the payload is a block of that array: when the two row blocks are rows `b·10000 + r` of the arrays and
    the three matrices are the whole weight matrices, the payload at `y` is the array at row `b·10000 + y₀`, column `y₁`. -/
theorem block_eq (x0 x1 : Vec Ideal S10000x64 .f32) (x2 x3 x4 : Vec Ideal S64x64 .f32)
    (X S : S100000x64.Idx → EReal) (A B C : S64x64.Idx → EReal) (b : Nat)
    (h0 : ∀ (r : Fin 10000) (k : Fin 64) (n : Fin 100000), n.val = b * 10000 + r.val → x0 (ix2 r k) = X (ix2 n k))
    (h1 : ∀ (r : Fin 10000) (k : Fin 64) (n : Fin 100000), n.val = b * 10000 + r.val → x1 (ix2 r k) = S (ix2 n k))
    (h2 : x2 = A) (h3 : x3 = B) (h4 : x4 = C)
    (y : S10000x64.Idx) (i : S100000x64.Idx) (hi0 : (i 0).val = b * 10000 + (y 0).val) (hi1 : (i 1).val = (y 1).val) :
    k0_pay1 x0 x1 x2 x3 x4 y = mlpArr X S A B C i := by
  obtain ⟨r, j, rfl⟩ : ∃ (r : Fin 10000) (j : Fin 64), y = ix2 r j := ⟨y 0, y 1, eq_ix2 y⟩
  have hi0' : (i 0).val = b * 10000 + r.val := hi0
  have hi1' : (i 1).val = j.val := hi1
  subst h2 h3 h4
  rw [pay0]
  unfold mlpArr
  have ex : (fun k => x0 (ix2 r k)) = (fun k => X (ix2 (⟨(i 0).val, idx2_lt0 i⟩ : Fin 100000) k)) :=
    funext fun k => h0 r k _ hi0'
  have es : (fun k => x1 (ix2 r k)) = (fun k => S (ix2 (⟨(i 0).val, idx2_lt0 i⟩ : Fin 100000) k)) :=
    funext fun k => h1 r k _ hi0'
  have ej : (⟨(i 1).val, idx2_lt1 i⟩ : Fin 64) = j := Fin.ext hi1'
  rw [ex, es, ej]

theorem zeroOff : (![0, 0] : Fin 2 → Nat) = fun _ => 0 := funext fun a => by fin_cases a <;> rfl

/-- The windows' block indices, decided over the grid: the two row windows and the result window are at block
    `(t, 0)`, the three matrices at block `(0, 0)`. -/
theorem blockIdx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of `x` is rows `t·10000 + r` of the array. -/
theorem xBlock (c : Dev nD) (t : Fin cfg0.N) (r : Fin 10000) (k : Fin 64) (n : Fin 100000) (hn : n.val = t.val * 10000 + r.val) :
    (iblk0 V c 0 t : Vec Ideal S10000x64 .f32) (ix2 r k) = xArr V c (ix2 n k) := by
  obtain ⟨e00, e01, -⟩ := blockIdx t
  unfold iblk0
  rw [View.read_apply]
  show V c main_arg0 _ = V c main_arg0 _
  congr 1
  funext a
  apply Fin.ext
  match a with
  | ⟨0, _⟩ => show win0_0.index t (0 : Fin 2) * 10000 + 1 * r.val = n.val; rw [e00, hn]; omega
  | ⟨1, _⟩ => show win0_0.index t (1 : Fin 2) * 64 + 1 * k.val = k.val; rw [e01]; omega

/-- Block `t` of the states likewise. -/
theorem sBlock (c : Dev nD) (t : Fin cfg0.N) (r : Fin 10000) (k : Fin 64) (n : Fin 100000) (hn : n.val = t.val * 10000 + r.val) :
    (iblk0 V c 1 t : Vec Ideal S10000x64 .f32) (ix2 r k) = sArr V c (ix2 n k) := by
  obtain ⟨-, -, e10, e11, -⟩ := blockIdx t
  unfold iblk0
  rw [View.read_apply]
  show V c main_arg1 _ = V c main_arg1 _
  congr 1
  funext a
  apply Fin.ext
  match a with
  | ⟨0, _⟩ => show win0_1.index t (0 : Fin 2) * 10000 + 1 * r.val = n.val; rw [e10, hn]; omega
  | ⟨1, _⟩ => show win0_1.index t (1 : Fin 2) * 64 + 1 * k.val = k.val; rw [e11]; omega

/-- The three matrix windows hold the whole matrices at every point. -/
theorem aBlock (c : Dev nD) (t : Fin cfg0.N) : (iblk0 V c 2 t : Vec Ideal S64x64 .f32) = wA V c := by
  obtain ⟨-, -, -, -, e20, e21, -⟩ := blockIdx t
  funext y
  unfold iblk0
  rw [View.read_apply]
  show V c main_v0 _ = V c main_v0 _
  congr 1
  funext a
  apply Fin.ext
  match a with
  | ⟨0, _⟩ => show win0_2.index t (0 : Fin 2) * 64 + 1 * (y 0).val = (y 0).val; rw [e20]; omega
  | ⟨1, _⟩ => show win0_2.index t (1 : Fin 2) * 64 + 1 * (y 1).val = (y 1).val; rw [e21]; omega

theorem bBlock (c : Dev nD) (t : Fin cfg0.N) : (iblk0 V c 3 t : Vec Ideal S64x64 .f32) = wB V c := by
  obtain ⟨-, -, -, -, -, -, e30, e31, -⟩ := blockIdx t
  funext y
  unfold iblk0
  rw [View.read_apply]
  show V c main_v1 _ = V c main_v1 _
  congr 1
  funext a
  apply Fin.ext
  match a with
  | ⟨0, _⟩ => show win0_3.index t (0 : Fin 2) * 64 + 1 * (y 0).val = (y 0).val; rw [e30]; omega
  | ⟨1, _⟩ => show win0_3.index t (1 : Fin 2) * 64 + 1 * (y 1).val = (y 1).val; rw [e31]; omega

theorem cBlock (c : Dev nD) (t : Fin cfg0.N) : (iblk0 V c 4 t : Vec Ideal S64x64 .f32) = wC V c := by
  obtain ⟨-, -, -, -, -, -, -, -, e40, e41, -⟩ := blockIdx t
  funext y
  unfold iblk0
  rw [View.read_apply]
  show V c main_v2 _ = V c main_v2 _
  congr 1
  funext a
  apply Fin.ext
  match a with
  | ⟨0, _⟩ => show win0_4.index t (0 : Fin 2) * 64 + 1 * (y 0).val = (y 0).val; rw [e40]; omega
  | ⟨1, _⟩ => show win0_4.index t (1 : Fin 2) * 64 + 1 * (y 1).val = (y 1).val; rw [e41]; omega

/-- The array the region leaves, as one function of the arrays it finds. -/
def hArr (c : Dev nD) : S100000x64.Idx → EReal := mlpArr (xArr V c) (sArr V c) (wA V c) (wB V c) (wC V c)

/-- What point `t` writes back is block `t` of that array. -/
theorem flushed0 (c : Dev nD) (t : Fin cfg0.N) :
    (dat0 (F := Ideal) V c).flushed 5 t = ((cfg0.win 5).blk t).view.read (Elt Ideal) (hArr V c) := by
  show (cfg0.win 5).cut (grid0.coords t) ((dat0 (F := Ideal) V c).after 5 t) = _
  rw [after0_5]
  unfold out0_5
  rw [View.canon_unit_zero zeroOff]
  simp only [View.ld_unit_zero (S := S10000x64) zeroOff, View.ld_unit_zero (S := S64x64) zeroOff]
  obtain ⟨-, -, -, -, -, -, -, -, -, -, e50, e51⟩ := blockIdx t
  funext y
  refine block_eq (iblk0 V c 0 t) (iblk0 V c 1 t) (iblk0 V c 2 t) (iblk0 V c 3 t) (iblk0 V c 4 t)
    (xArr V c) (sArr V c) (wA V c) (wB V c) (wC V c) t.val (xBlock V c t) (sBlock V c t) (aBlock V c t) (bBlock V c t) (cBlock V c t)
    y (((cfg0.win 5).blk t).view.emb y) ?_ ?_
  · show win0_5.index t (0 : Fin 2) * 10000 + 1 * (y 0).val = t.val * 10000 + (y 0).val
    rw [e50]; omega
  · show win0_5.index t (1 : Fin 2) * 64 + 1 * (y 1).val = (y 1).val
    rw [e51]; omega

/-- An index of the array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v3).slice (win0_5.rect t)).set ↔ _
  rw [View.set_slice_whole, Rect.mem_set_unit]
  exact Iff.rfl

/-- Row `n` lies in the block of point `n / 10000`, and every point writes its block back: the blocks tile the array. -/
theorem cover0 (i : S100000x64.Idx) : ∃ t : Fin cfg0.N, (cfg0.win 5).flush t = true ∧ i ∈ ((cfg0.win 5).blk t).view.set := by
  have hi0 : (i 0).val < 100000 := idx2_lt0 i
  have hi1 : (i 1).val < 64 := idx2_lt1 i
  let t : Fin cfg0.N := ⟨(i 0).val / 10000, by show _ < grid0.N; rw [N_0]; omega⟩
  obtain ⟨-, -, -, -, -, -, -, -, -, -, e50, e51⟩ := blockIdx t
  refine ⟨t, flush0_5 t, ?_⟩
  rw [mem_blk0]
  intro a
  match a with
  | ⟨0, _⟩ =>
    show win0_5.index t (0 : Fin 2) * 10000 ≤ (i 0).val ∧ (i 0).val < win0_5.index t (0 : Fin 2) * 10000 + 10000
    rw [e50]; show (i 0).val / 10000 * 10000 ≤ (i 0).val ∧ (i 0).val < (i 0).val / 10000 * 10000 + 10000; omega
  | ⟨1, _⟩ =>
    show win0_5.index t (1 : Fin 2) * 64 ≤ (i 1).val ∧ (i 1).val < win0_5.index t (1 : Fin 2) * 64 + 64
    rw [e51]; omega

/-- The array the region leaves is the feature transform, row by row. -/
theorem hOut_eq (c : Dev nD) : hOut V c = hArr V c :=
  (dat0 (F := Ideal) V c).arrAt_eq_of_cover 5 (hArr V c) (fun t _ => flushed0 V c t) cover0

end Reg0

/-- The feature-transform array the first region leaves, read at node `r` of block `t`, feature `j`. -/
theorem value0 (c : Dev nD) (t : Fin 10) (r : Fin 10000) (j : Fin 64) :
    hOut V c (ix2 (node t r) j)
      = mlpRow (fun k => xArr V c (ix2 (node t r) k)) (fun k => sArr V c (ix2 (node t r) k)) (wA V c) (wB V c) (wC V c) j := by
  rw [Reg0.hOut_eq]
  rfl

end Cert.KernelIdeal.GN

end
-- ==== Proof.KReg1.lean ====
/-
  The second kernel's array: the per-graph sums of the aggregated rows. Each grid point adds, into one block that is
  reset at the first point and written back after the last, the one-hot-weighted sum of its ten thousand rows; after
  the tenth point the block holds the sum over the ten blocks.
-/
import proofs.«140284_j83322365542770_1_alg».proof.Proof.Gen.KernelIdeal.Frame
import proofs.«140284_j83322365542770_1_alg».proof.Proof.Spec
import Idealize.ShloMosaic.Lib.Pipeline.Value
import Idealize.ShloMosaic.Lib.Tactic
import Idealize.ShloMosaic.Lib.StableHlo.Predicate
import Idealize.ShloMosaic.PureOps.Ideal.Laws
import proofs.«140284_j83322365542770_1_alg».proof.Proof.KNames

set_option maxRecDepth 16384

noncomputable section

namespace Cert.KernelIdeal.GN

open Idealize.ShloMosaic Idealize.ShloMosaic.TcCoe Idealize.SL.Sem Idealize.ShloMosaic.ValueIdx
open Idealize.ShloMosaic.Pipeline (Dat)
open Cert.KernelIdeal Cert.KernelIdeal.Gen Cert.GN
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- After the first point: the block holding `xo` is left holding the update of `xo` by this point's rows `x0`
    and words `x1` — the one store covers the block, its loads read the whole buffers. -/
theorem piece1_B (c : Dev nD) (i : grid1.Coords) (a1 : Memref sig .tc .vmem S10000x64 .f32) (h1 : a1.IsWhole)
    (a2 : Memref sig .tc .vmem S10000x1 .i32) (h2 : a2.IsWhole) (a3 : Memref sig .tc .vmem S100x64 .f32) (h3 : a3.IsWhole)
    (hc : ¬cond1_0 i) (x0 : Vec Ideal S10000x64 .f32) (x1 : Vec Ideal S10000x1 .i32) (xo : Vec Ideal S100x64 .f32) :
    out1_B_2 (F := Ideal) c i a1 h1 a2 h2 a3 h3 hc x0 x1 xo = k1_pay2 (F := Ideal) x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero (S := S100x64) hz2]
  simp only [View.readAt_eq_ld, h1.read_unread, h2.read_unread, h3.read_unread, View.ld_unit_zero (S := S10000x64) hz2,
    View.ld_unit_zero (S := S10000x1) hz2, View.ld_unit_zero (S := S100x64) hz2]

/-- At the first point: the block is reset to the zero block, read back, and left holding the update of the zero
    block by this point's rows and words. -/
theorem piece1_A (c : Dev nD) (i : grid1.Coords) (a1 : Memref sig .tc .vmem S10000x64 .f32) (h1 : a1.IsWhole)
    (a2 : Memref sig .tc .vmem S10000x1 .i32) (h2 : a2.IsWhole) (a3 : Memref sig .tc .vmem S100x64 .f32) (h3 : a3.IsWhole)
    (hc : cond1_0 i) (x0 : Vec Ideal S10000x64 .f32) (x1 : Vec Ideal S10000x1 .i32) :
    out1_A_2 (F := Ideal) c i a1 h1 a2 h2 a3 h3 hc x0 x1 = k1_pay2 (F := Ideal) x0 x1 (k1_pay1 (F := Ideal)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S100x64) hz2, View.readCov_unit_zero (S := S100x64) _ hz2]
  simp only [View.readAt_eq_ld, h1.read_unread, h2.read_unread, View.ld_unit_zero (S := S10000x64) hz2,
    View.ld_unit_zero (S := S10000x1) hz2]

/-! ## The update at an index -/

/-- The mask the kernel builds from a column of words — the column broadcast along the hundred graph numbers,
    compared for equality with the graph number, the bit widened and converted — is the one-hot weight of row
    `r`'s word against graph `g`. -/
theorem mask_apply (v : IVec S10000x1 32) (r : Fin 10000) (g : Fin 100) :
    (sitofp (F := Ideal) .f32 (extui 32 (cmpi .eq (broadcastTo S10000x100 v broadcasts_S10000x1_S10000x100)
      (iota .tc S10000x100 32 [1] iota_S10000x100_d1_w32)) natLt_1_32) : FVec Ideal S10000x100 .f32) (ix2 r g)
      = oh (v (ix2 r 0)) g := by
  have hb : broadcastTo S10000x100 v broadcasts_S10000x1_S10000x100 (ix2 r g) = v (ix2 r 0) :=
    broadcastTo_apply v broadcasts_S10000x1_S10000x100 (ix2 r g) (ix2 r 0) (fun a => by
      match a with
      | ⟨0, _⟩ => rfl
      | ⟨1, _⟩ => rfl)
  have hi : iota .tc S10000x100 32 [1] iota_S10000x100_d1_w32 (ix2 r g) = BitVec.ofNat 32 g.val :=
    iota_single_apply .tc S10000x100 32 1 iota_S10000x100_d1_w32 (ix2 r g)
  show Scalar.sitofp (F := Ideal) .f32 ((IntOp.cmpi .eq (broadcastTo S10000x100 v broadcasts_S10000x1_S10000x100 (ix2 r g))
      (iota .tc S10000x100 32 [1] iota_S10000x100_d1_w32 (ix2 r g))).setWidth 32) = _
  rw [hb, hi, Ideal.scalar_sitofp_def]
  unfold oh
  by_cases h : v (ix2 r 0) = BitVec.ofNat 32 g.val
  · rw [if_pos h, StableHlo.Predicate.cmpi_eq_iff.mpr h]
    simp
  · rw [if_neg h, eq_zero_of_ne_one (fun hc => h (StableHlo.Predicate.cmpi_eq_iff.mp hc))]
    simp

/-- The product's left operand (the mask, rows by graphs) is read at (the contracted row, the result's graph); -/
theorem lhs_seg_0 (j : S100x64.Idx) (q : dot_S10000x100_S10000x64_S100x64_0_0_1_1_n_n.contr.Idx) :
    (dot_S10000x100_S10000x64_S100x64_0_0_1_1_n_n.lhsIdx j q 0).val = (q ⟨0, by decide⟩).val :=
  dot_S10000x100_S10000x64_S100x64_0_0_1_1_n_n.lhsIdx_val_of_single rfl j q
theorem lhs_seg_1 (j : S100x64.Idx) (q : dot_S10000x100_S10000x64_S100x64_0_0_1_1_n_n.contr.Idx) :
    (dot_S10000x100_S10000x64_S100x64_0_0_1_1_n_n.lhsIdx j q 1).val = (j 0).val := by
  unfold DotDims.lhsIdx
  rw [dif_neg (show ¬(1 : Fin S10000x100.rank) ∈ dot_S10000x100_S10000x64_S100x64_0_0_1_1_n_n.lhsBatch by decide), dif_pos (show (1 : Fin S10000x100.rank) ∈ dot_S10000x100_S10000x64_S100x64_0_0_1_1_n_n.lhsNonContracting by decide)]
  rfl
/-- its right operand (the rows' values, rows by features) at (the contracted row, the result's feature). -/
theorem rhs_seg_0 (j : S100x64.Idx) (q : dot_S10000x100_S10000x64_S100x64_0_0_1_1_n_n.contr.Idx) :
    (dot_S10000x100_S10000x64_S100x64_0_0_1_1_n_n.rhsIdx j q 0).val = (q ⟨0, by decide⟩).val :=
  dot_S10000x100_S10000x64_S100x64_0_0_1_1_n_n.rhsIdx_val_of_single rfl j q
theorem rhs_seg_1 (j : S100x64.Idx) (q : dot_S10000x100_S10000x64_S100x64_0_0_1_1_n_n.contr.Idx) :
    (dot_S10000x100_S10000x64_S100x64_0_0_1_1_n_n.rhsIdx j q 1).val = (j 1).val := by
  unfold DotDims.rhsIdx
  rw [dif_neg (show ¬(1 : Fin S10000x64.rank) ∈ dot_S10000x100_S10000x64_S100x64_0_0_1_1_n_n.rhsBatch by decide), dif_pos (show (1 : Fin S10000x64.rank) ∈ dot_S10000x100_S10000x64_S100x64_0_0_1_1_n_n.rhsNonContracting by decide)]
  rfl

/-- The product of a rows-by-graphs matrix `M` with a rows-by-features matrix `X`, both contracted over their
    ten thousand rows, into the zero block: at (g, f) the sum over the rows of `M (r, g) * X (r, f)`. -/
theorem seg_matmul_apply (M : FVec Ideal S10000x100 .f32) (X : FVec Ideal S10000x64 .f32) (g : Fin 100) (f : Fin 64) :
    (matmul dot_S10000x100_S10000x64_S100x64_0_0_1_1_n_n (some .fp32) M X (constant (F := Ideal) S100x64 .f32 0x00000000#32) : FVec Ideal S100x64 .f32) (ix2 g f)
      = ∑ r : Fin 10000, M (ix2 r g) * X (ix2 r f) := by
  simp only [matmul]
  rw [Ideal.matmul_constant_zero_apply, ← Equiv.sum_comp (ValueIdx.contrEquiv1 dot_S10000x100_S10000x64_S100x64_0_0_1_1_n_n 10000 rfl rfl).symm]
  refine Finset.sum_congr rfl fun k _ => ?_
  have hk := ValueIdx.contrEquiv1_symm_val dot_S10000x100_S10000x64_S100x64_0_0_1_1_n_n 10000 rfl rfl k
  have el : dot_S10000x100_S10000x64_S100x64_0_0_1_1_n_n.lhsIdx (ix2 g f) ((ValueIdx.contrEquiv1 dot_S10000x100_S10000x64_S100x64_0_0_1_1_n_n 10000 rfl rfl).symm k) = ix2 k g := funext fun a => Fin.ext (by
    match a with
    | ⟨0, _⟩ => exact (lhs_seg_0 _ _).trans hk
    | ⟨1, _⟩ => exact lhs_seg_1 _ _)
  have er : dot_S10000x100_S10000x64_S100x64_0_0_1_1_n_n.rhsIdx (ix2 g f) ((ValueIdx.contrEquiv1 dot_S10000x100_S10000x64_S100x64_0_0_1_1_n_n 10000 rfl rfl).symm k) = ix2 k f := funext fun a => Fin.ext (by
    match a with
    | ⟨0, _⟩ => exact (rhs_seg_0 _ _).trans hk
    | ⟨1, _⟩ => exact rhs_seg_1 _ _)
  rw [el, er]

/-- The update at (g, f): what the block held there plus the one-hot-weighted sum of this point's rows. -/
theorem k1_pay2_apply (v3 : Vec Ideal S10000x64 .f32) (v5 : Vec Ideal S10000x1 .i32) (v13 : Vec Ideal S100x64 .f32)
    (g : Fin 100) (f : Fin 64) :
    k1_pay2 (F := Ideal) v3 v5 v13 (ix2 g f)
      = v13 (ix2 g f) + ohSeg (fun r : Fin 10000 => v5 (ix2 r 0)) (fun r : Fin 10000 => v3 (ix2 r f)) g := by
  unfold k1_pay2
  simp only [shapeCast_self]
  rw [addf_apply]
  refine congrArg (v13 (ix2 g f) + ·) ?_
  refine (seg_matmul_apply _ v3 g f).trans ?_
  unfold ohSeg
  exact Finset.sum_congr rfl fun r _ => congrArg (· * v3 (ix2 r f)) (mask_apply v5 r g)

/-- The reset block is zero everywhere. -/
theorem k1_pay1_apply (j : S100x64.Idx) : k1_pay1 (F := Ideal) j = 0 := by
  unfold k1_pay1
  exact Ideal.ofBits_zero_f32

/-! ## The blocks the points read -/

/-- The rows and the words a point finds in its two input buffers, at their literal types. -/
abbrev aggBlk (c : Dev nD) (t : Fin cfg1.N) : Vec Ideal S10000x64 .f32 := iblk1 V c 0 t
abbrev wordBlk (c : Dev nD) (t : Fin cfg1.N) : Vec Ideal S10000x1 .i32 := iblk1 V c 1 t

/-- Both input windows sit at block (t, 0) at point `t`. -/
theorem idx1_in : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `r` of the rows' block at point `t` is node `r` of block `t` of the aggregate array. -/
theorem aggBlk_apply (c : Dev nD) (t : Fin cfg1.N) (k : Fin 10) (hk : k.val = t.val) (r : Fin 10000) (f : Fin 64) :
    aggBlk V c t (ix2 r f) = aggArr V c (ix2 (node k r) f) := by
  obtain ⟨e0, e1, -, -⟩ := idx1_in t
  show V c main_v19 (((cfg1.win 0).blk t).view.emb (ix2 r f)) = V c main_v19 (ix2 (node k r) f)
  refine congrArg (V c main_v19) (funext fun a => Fin.ext ?_)
  match a with
  | ⟨0, _⟩ => show win1_0.index t (0 : Fin 2) * 10000 + 1 * r.val = k.val * 10000 + r.val; rw [e0, hk]; omega
  | ⟨1, _⟩ => show win1_0.index t (1 : Fin 2) * 64 + 1 * f.val = f.val; rw [e1]; omega

/-- Row `r` of the words' block at point `t` is the word of node `r` of block `t`. -/
theorem wordBlk_apply (c : Dev nD) (t : Fin cfg1.N) (k : Fin 10) (hk : k.val = t.val) (r : Fin 10000) :
    wordBlk V c t (ix2 r 0) = bCol V c (ix2 (node k r) 0) := by
  obtain ⟨-, -, e0, e1⟩ := idx1_in t
  show V c main_v20 (((cfg1.win 1).blk t).view.emb (ix2 r 0)) = V c main_v20 (ix2 (node k r) 0)
  refine congrArg (V c main_v20) (funext fun a => Fin.ext ?_)
  match a with
  | ⟨0, _⟩ => show win1_1.index t (0 : Fin 2) * 10000 + 1 * r.val = k.val * 10000 + r.val; rw [e0, hk]; omega
  | ⟨1, _⟩ => show win1_1.index t (1 : Fin 2) * 1 + 1 * 0 = 0; rw [e1]

/-! ## The running sum -/

/-- What block `t` of the nodes adds at (g, f): the one-hot-weighted sum of its ten thousand rows. -/
def blkTerm (c : Dev nD) (g : Fin 100) (f : Fin 64) (t : Fin 10) : EReal :=
  ohSeg (fun r : Fin 10000 => bCol V c (ix2 (node t r) 0)) (fun r : Fin 10000 => aggArr V c (ix2 (node t r) f)) g

/-- The same over the naturals (zero past the tenth block), for sums over an initial segment. -/
def blkTermN (c : Dev nD) (g : Fin 100) (f : Fin 64) (k : ℕ) : EReal :=
  if hk : k < 10 then blkTerm V c g f ⟨k, hk⟩ else 0

/-- The block after point `n`: at (g, f) the sum of the terms of blocks 0 … n. -/
def running (c : Dev nD) (n : ℕ) : S100x64.Idx → EReal := fun j => ∑ k ∈ Finset.range (n + 1), blkTermN V c (j 0) (j 1) k

/-- What a point's update adds, read off its two buffers, is its block's term. -/
theorem seg_eq_term (c : Dev nD) (g : Fin 100) (f : Fin 64) (t : Fin cfg1.N) :
    ohSeg (fun r : Fin 10000 => wordBlk V c t (ix2 r 0)) (fun r : Fin 10000 => aggBlk V c t (ix2 r f)) g
      = blkTermN V c g f t.val := by
  have ht : t.val < 10 := lt_of_lt_of_eq t.isLt N_1
  unfold blkTermN
  rw [dif_pos ht]
  unfold blkTerm ohSeg
  exact Finset.sum_congr rfl fun r _ =>
    congrArg₂ (fun (w : BitVec 32) (x : EReal) => oh w g * x) (wordBlk_apply V c t ⟨t.val, ht⟩ rfl r)
      (aggBlk_apply V c t ⟨t.val, ht⟩ rfl r f)

/-- The block's contents after point `n` are the running sum: the first point resets to zero and adds its term,
    every later point adds its term to what the point before left. -/
theorem outsAt1_apply (c : Dev nD) (g : Fin 100) (f : Fin 64) : ∀ (n : ℕ) (h : n < cfg1.N),
    outsAt1 (F := Ideal) V c n h (ix2 g f) = ∑ k ∈ Finset.range (n + 1), blkTermN V c g f k
  | 0, h => by
    rw [outsAt1_A V c ⟨0, h⟩ rfl]
    refine (congrFun (piece1_A c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (aggBlk V c ⟨0, h⟩) (wordBlk V c ⟨0, h⟩)) (ix2 g f)).trans ?_
    refine (k1_pay2_apply (aggBlk V c ⟨0, h⟩) (wordBlk V c ⟨0, h⟩) (k1_pay1 (F := Ideal)) g f).trans ?_
    rw [k1_pay1_apply, zero_add, Finset.sum_range_one]
    exact seg_eq_term V c g f ⟨0, h⟩
  | n + 1, h => by
    have hN : cfg1.N = 10 := N_1
    have hB : ¬(⟨n + 1, h⟩ : Fin cfg1.N).val % 10 = 0 := by dsimp only; omega
    rw [outsAt1_B V c ⟨n + 1, h⟩ hB]
    refine (congrFun (piece1_B c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (aggBlk V c ⟨n + 1, h⟩) (wordBlk V c ⟨n + 1, h⟩)
      (outsAt1 V c n (Nat.lt_of_succ_lt h))) (ix2 g f)).trans ?_
    refine (k1_pay2_apply (aggBlk V c ⟨n + 1, h⟩) (wordBlk V c ⟨n + 1, h⟩) (outsAt1 V c n (Nat.lt_of_succ_lt h)) g f).trans ?_
    rw [Finset.sum_range_succ _ (n + 1)]
    exact congrArg₂ (· + ·) (outsAt1_apply c g f n (Nat.lt_of_succ_lt h)) (seg_eq_term V c g f ⟨n + 1, h⟩)

theorem outsAt1_eq (c : Dev nD) (n : ℕ) (h : n < cfg1.N) : outsAt1 (F := Ideal) V c n h = running V c n :=
  funext fun j => by
    obtain ⟨g, f, rfl⟩ : ∃ (g : Fin 100) (f : Fin 64), j = ix2 g f := ⟨j 0, j 1, eq_ix2 j⟩
    exact outsAt1_apply V c g f n h

/-! ## From the block to the array -/

/-- The block's place at the last point: offset zero on both axes, the whole hundred by sixty-four. -/
theorem last_block : win1_2.index t1_9 (0 : Fin 2) * win1_2.size (0 : Fin 2) = 0
    ∧ win1_2.xsize (grid1.coords t1_9) (0 : Fin 2) = 100
    ∧ win1_2.index t1_9 (1 : Fin 2) * win1_2.size (1 : Fin 2) = 0
    ∧ win1_2.xsize (grid1.coords t1_9) (1 : Fin 2) = 64 := by decide +kernel

/-- The one write-back, after the tenth point, writes the running sum over all ten blocks: the block is the array. -/
theorem flushed1_eq (c : Dev nD) (t : Fin cfg1.N) (hf : (cfg1.win 2).flush t = true) :
    (dat1 (F := Ideal) V c).flushed 2 t = ((cfg1.win 2).blk t).view.read (Elt Ideal) (running V c 9) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, outsAt1_eq]
  have hz' : (fun a => win1_2.index t1_9 a * main_v23.ty.shape.size a) = fun _ => 0 := funext fun a => by fin_cases a <;> decide
  exact (Memref.read_access_unit_zero (Elt Ideal) main_v23 hz' (fun a => by rw [congrFun hz' a]; simp) (running V c 9)).symm

/-- So the array the region leaves is the running sum after the tenth point. -/
theorem muSum_eq (c : Dev nD) : muSumOut V c = running V c 9 :=
  (dat1 (F := Ideal) V c).arrAt_eq_of_cover 2 (running V c 9) (flushed1_eq V c) fun i =>
    ⟨t1_9, (flush1_2 t1_9).mpr rfl, by
      show i ∈ ((View.whole main_v23).slice (win1_2.rect t1_9)).set
      rw [View.set_slice_whole, Rect.mem_set_unit]
      obtain ⟨o0, s0, o1, s1⟩ := last_block
      have h0 : (i 0 : Nat) < 100 := (i 0).isLt
      have h1 : (i 1 : Nat) < 64 := (i 1).isLt
      intro a
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [o0, s0]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [o1, s1]; omega⟩

/-- The per-graph sum array the second region leaves, at graph `g`, feature `f`. -/
theorem value1 (c : Dev nD) (g : Fin 100) (f : Fin 64) :
    muSumOut V c (ix2 g f)
      = ∑ t : Fin 10, ohSeg (fun r : Fin 10000 => bCol V c (ix2 (node t r) 0)) (fun r : Fin 10000 => aggArr V c (ix2 (node t r) f)) g := by
  rw [muSum_eq V c]
  show ∑ k ∈ Finset.range 10, blkTermN V c g f k = ∑ t : Fin 10, blkTerm V c g f t
  rw [Finset.sum_range]
  exact Finset.sum_congr rfl fun t _ => dif_pos t.isLt

end Cert.KernelIdeal.GN

end
-- ==== Proof.KReg2.lean ====
/-
  The third kernel's array: the per-graph sums of the squared centred rows, accumulated over the ten grid points like
  the per-graph sums before it; a row is centred by the one-hot selection of the means.

  A point's body builds the one-hot mask of its ten thousand rows against the hundred graphs (the graph-axis iota
  compared with the broadcast word column), contracts it with the means over the graphs (the selection), squares the
  centred block, contracts the mask with the squares over the rows (the segment sum), and adds that onto the block it
  finds, which the first point has reset to zero. So after point n the block holds the sum of the first n + 1 points'
  segment sums (by induction on the point), and the one write-back, after the last point, writes the whole array.
-/
import proofs.«140284_j83322365542770_1_alg».proof.Proof.Gen.KernelIdeal.Frame
import proofs.«140284_j83322365542770_1_alg».proof.Proof.Spec
import Idealize.ShloMosaic.Lib.Pipeline.Value
import proofs.«140284_j83322365542770_1_alg».proof.Proof.KNames
import Idealize.ShloMosaic.Lib.Tactic
import Idealize.ShloMosaic.PureOps.Ideal.Laws
import Idealize.ShloMosaic.Lib.StableHlo.Predicate

set_option maxRecDepth 16384

noncomputable section

namespace Cert.KernelIdeal.GN

open Idealize.ShloMosaic Idealize.ShloMosaic.TcCoe Idealize.SL.Sem Idealize.ShloMosaic.ValueIdx
open Idealize.ShloMosaic.Pipeline (Dat)
open Cert.KernelIdeal Cert.KernelIdeal.Gen Cert.GN
open scoped BigOperators

namespace Reg2

/-! ## What each case of the body leaves in the result's block -/

theorem zeroOff2 : (![0, 0] : Fin 2 → Nat) = fun _ => 0 := funext fun a => by fin_cases a <;> rfl

/-- A later point: one store covering the block, of the accumulating payload over the three input blocks and the
    block's contents on entry. -/
theorem laterPoint_block (c : Dev nD) (i : grid2.Coords) (a1 : Memref sig .tc .vmem S10000x64 .f32) (h1 : a1.IsWhole)
    (a2 : Memref sig .tc .vmem S10000x1 .i32) (h2 : a2.IsWhole) (a3 : Memref sig .tc .vmem S100x64 .f32) (h3 : a3.IsWhole)
    (a4 : Memref sig .tc .vmem S100x64 .f32) (h4 : a4.IsWhole) (hc : ¬cond2_0 i)
    (x0 : Vec Ideal S10000x64 .f32) (x1 : Vec Ideal S10000x1 .i32) (x2 : Vec Ideal S100x64 .f32) (xo : Vec Ideal S100x64 .f32) :
    out2_B_3 (F := Ideal) c i a1 h1 a2 h2 a3 h3 a4 h4 hc x0 x1 x2 xo = k2_pay2 x0 x1 x2 xo := by
  unfold out2_B_3
  rw [View.read_writes_eq_canon _ _ _ (cover2_B_3 c i a1 h1 a2 h2 a3 h3 a4 h4 hc x0 x1 x2 xo)]
  unfold kernelRun2_B
  dsimp only
  sl_unfold_words
  rw [View.canon_unit_zero zeroOff2]
  simp only [View.readAt_eq_ld, h1.read_unread, h2.read_unread, h3.read_unread, h4.read_unread,
    View.ld_unit_zero (S := S10000x64) zeroOff2, View.ld_unit_zero (S := S10000x1) zeroOff2, View.ld_unit_zero (S := S100x64) zeroOff2]

/-- The first point: the zero block is stored, read back, and the accumulating payload over it stored on top. -/
theorem firstPoint_block (c : Dev nD) (i : grid2.Coords) (a1 : Memref sig .tc .vmem S10000x64 .f32) (h1 : a1.IsWhole)
    (a2 : Memref sig .tc .vmem S10000x1 .i32) (h2 : a2.IsWhole) (a3 : Memref sig .tc .vmem S100x64 .f32) (h3 : a3.IsWhole)
    (a4 : Memref sig .tc .vmem S100x64 .f32) (h4 : a4.IsWhole) (hc : cond2_0 i)
    (x0 : Vec Ideal S10000x64 .f32) (x1 : Vec Ideal S10000x1 .i32) (x2 : Vec Ideal S100x64 .f32) :
    out2_A_3 (F := Ideal) c i a1 h1 a2 h2 a3 h3 a4 h4 hc x0 x1 x2 = k2_pay2 x0 x1 x2 (k2_pay1 (F := Ideal)) := by
  unfold out2_A_3
  rw [View.read_writes_eq_canon _ _ _ (cover2_A_3 c i a1 h1 a2 h2 a3 h3 a4 h4 hc x0 x1 x2)]
  unfold kernelRun2_A
  dsimp only
  sl_unfold_words
  rw [View.canon_cons_unit_zero (S := S100x64) zeroOff2, View.readCov_unit_zero (S := S100x64) _ zeroOff2]
  simp only [View.readAt_eq_ld, h1.read_unread, h2.read_unread, h3.read_unread,
    View.ld_unit_zero (S := S10000x64) zeroOff2, View.ld_unit_zero (S := S10000x1) zeroOff2, View.ld_unit_zero (S := S100x64) zeroOff2]

/-! ## The one-hot mask at an index -/

/-- The iota along the graph axis against the broadcast word column, compared, widened and converted: the one-hot
    weight of row `r`'s word against graph `g`. -/
theorem mask_apply (v : IVec S10000x1 32) (r : Fin 10000) (g : Fin 100) :
    (sitofp (F := Ideal) .f32 (extui 32 (cmpi .eq (broadcastTo S10000x100 v broadcasts_S10000x1_S10000x100)
      (iota .tc S10000x100 32 [1] iota_S10000x100_d1_w32)) natLt_1_32) : FVec Ideal S10000x100 .f32) (ix2 r g)
      = oh (v (ix2 r 0)) g := by
  rw [sitofp_apply, extui_apply]
  have hb : broadcastTo S10000x100 v broadcasts_S10000x1_S10000x100 (ix2 r g) = v (ix2 r 0) :=
    broadcastTo_apply v broadcasts_S10000x1_S10000x100 (ix2 r g) (ix2 r 0) (fun a => by
      match a with
      | ⟨0, _⟩ => rfl
      | ⟨1, _⟩ => rfl)
  have hi : iota .tc S10000x100 32 [1] iota_S10000x100_d1_w32 (ix2 r g) = BitVec.ofNat 32 g.val :=
    iota_single_apply .tc S10000x100 32 1 iota_S10000x100_d1_w32 (ix2 r g)
  show FloatOps.sitofp (F := Ideal) .f32 ((IntOp.cmpi .eq (broadcastTo S10000x100 v broadcasts_S10000x1_S10000x100 (ix2 r g))
      (iota .tc S10000x100 32 [1] iota_S10000x100_d1_w32 (ix2 r g))).setWidth 32) = _
  rw [hb, hi]
  unfold oh
  by_cases h : v (ix2 r 0) = BitVec.ofNat 32 g.val
  · rw [if_pos h, (StableHlo.Predicate.cmpi_eq_iff).mpr h]
    show ((((1#1 : BitVec 1).setWidth 32).toInt : ℝ) : EReal) = (1 : EReal)
    rw [show ((1#1 : BitVec 1).setWidth 32).toInt = 1 from by decide]
    norm_num
  · rw [if_neg h, eq_zero_of_ne_one (fun h1 => h ((StableHlo.Predicate.cmpi_eq_iff).mp h1))]
    show ((((0#1 : BitVec 1).setWidth 32).toInt : ℝ) : EReal) = (0 : EReal)
    rw [show ((0#1 : BitVec 1).setWidth 32).toInt = 0 from by decide]
    norm_num

/-! ## The two contractions at an index -/

/-- The selection's operand indices: the mask is read at (the row, the graph), the table at (the graph, the feature). -/
theorem sel_lhs_0 (i : S10000x64.Idx) (q : dot_S10000x100_S100x64_S10000x64_1_0_0_1_n_n.contr.Idx) :
    (dot_S10000x100_S100x64_S10000x64_1_0_0_1_n_n.lhsIdx i q 0).val = (i 0).val := by
  unfold DotDims.lhsIdx
  rw [dif_neg (show ¬(0 : Fin S10000x100.rank) ∈ dot_S10000x100_S100x64_S10000x64_1_0_0_1_n_n.lhsBatch by decide), dif_pos (show (0 : Fin S10000x100.rank) ∈ dot_S10000x100_S100x64_S10000x64_1_0_0_1_n_n.lhsNonContracting by decide)]
  rfl
theorem sel_lhs_1 (i : S10000x64.Idx) (q : dot_S10000x100_S100x64_S10000x64_1_0_0_1_n_n.contr.Idx) :
    (dot_S10000x100_S100x64_S10000x64_1_0_0_1_n_n.lhsIdx i q 1).val = (q ⟨0, by decide⟩).val :=
  dot_S10000x100_S100x64_S10000x64_1_0_0_1_n_n.lhsIdx_val_of_single rfl i q
theorem sel_rhs_0 (i : S10000x64.Idx) (q : dot_S10000x100_S100x64_S10000x64_1_0_0_1_n_n.contr.Idx) :
    (dot_S10000x100_S100x64_S10000x64_1_0_0_1_n_n.rhsIdx i q 0).val = (q ⟨0, by decide⟩).val :=
  dot_S10000x100_S100x64_S10000x64_1_0_0_1_n_n.rhsIdx_val_of_single rfl i q
theorem sel_rhs_1 (i : S10000x64.Idx) (q : dot_S10000x100_S100x64_S10000x64_1_0_0_1_n_n.contr.Idx) :
    (dot_S10000x100_S100x64_S10000x64_1_0_0_1_n_n.rhsIdx i q 1).val = (i 1).val := by
  unfold DotDims.rhsIdx
  rw [dif_neg (show ¬(1 : Fin S100x64.rank) ∈ dot_S10000x100_S100x64_S10000x64_1_0_0_1_n_n.rhsBatch by decide), dif_pos (show (1 : Fin S100x64.rank) ∈ dot_S10000x100_S100x64_S10000x64_1_0_0_1_n_n.rhsNonContracting by decide)]
  rfl

/-- The selection at (row `r`, feature `f`): the sum over the hundred graphs of the mask's entry times the table's. -/
theorem sel_apply (M : FVec Ideal S10000x100 .f32) (T : FVec Ideal S100x64 .f32) (r : Fin 10000) (f : Fin 64) :
    matmul dot_S10000x100_S100x64_S10000x64_1_0_0_1_n_n (some .fp32) M T (constant (F := Ideal) S10000x64 .f32 0x00000000#32) (ix2 r f)
      = ∑ g : Fin 100, M (ix2 r g) * T (ix2 g f) := by
  simp only [matmul]
  rw [Ideal.matmul_constant_zero_apply, ← Equiv.sum_comp (contrEquiv1 dot_S10000x100_S100x64_S10000x64_1_0_0_1_n_n 100 rfl rfl).symm]
  refine Finset.sum_congr rfl fun k _ => ?_
  have hk := contrEquiv1_symm_val dot_S10000x100_S100x64_S10000x64_1_0_0_1_n_n 100 rfl rfl k
  have el : dot_S10000x100_S100x64_S10000x64_1_0_0_1_n_n.lhsIdx (ix2 r f) ((contrEquiv1 dot_S10000x100_S100x64_S10000x64_1_0_0_1_n_n 100 rfl rfl).symm k) = ix2 r k := funext fun a => Fin.ext (by
    match a with
    | ⟨0, _⟩ => exact sel_lhs_0 _ _
    | ⟨1, _⟩ => exact (sel_lhs_1 _ _).trans hk)
  have er : dot_S10000x100_S100x64_S10000x64_1_0_0_1_n_n.rhsIdx (ix2 r f) ((contrEquiv1 dot_S10000x100_S100x64_S10000x64_1_0_0_1_n_n 100 rfl rfl).symm k) = ix2 k f := funext fun a => Fin.ext (by
    match a with
    | ⟨0, _⟩ => exact (sel_rhs_0 _ _).trans hk
    | ⟨1, _⟩ => exact sel_rhs_1 _ _)
  rw [el, er]

/-- The segment sum's operand indices: both operands are read at the contracted row; the mask at the graph, the values
    at the feature. -/
theorem seg_lhs_0 (i : S100x64.Idx) (q : dot_S10000x100_S10000x64_S100x64_0_0_1_1_n_n.contr.Idx) :
    (dot_S10000x100_S10000x64_S100x64_0_0_1_1_n_n.lhsIdx i q 0).val = (q ⟨0, by decide⟩).val :=
  dot_S10000x100_S10000x64_S100x64_0_0_1_1_n_n.lhsIdx_val_of_single rfl i q
theorem seg_lhs_1 (i : S100x64.Idx) (q : dot_S10000x100_S10000x64_S100x64_0_0_1_1_n_n.contr.Idx) :
    (dot_S10000x100_S10000x64_S100x64_0_0_1_1_n_n.lhsIdx i q 1).val = (i 0).val := by
  unfold DotDims.lhsIdx
  rw [dif_neg (show ¬(1 : Fin S10000x100.rank) ∈ dot_S10000x100_S10000x64_S100x64_0_0_1_1_n_n.lhsBatch by decide), dif_pos (show (1 : Fin S10000x100.rank) ∈ dot_S10000x100_S10000x64_S100x64_0_0_1_1_n_n.lhsNonContracting by decide)]
  rfl
theorem seg_rhs_0 (i : S100x64.Idx) (q : dot_S10000x100_S10000x64_S100x64_0_0_1_1_n_n.contr.Idx) :
    (dot_S10000x100_S10000x64_S100x64_0_0_1_1_n_n.rhsIdx i q 0).val = (q ⟨0, by decide⟩).val :=
  dot_S10000x100_S10000x64_S100x64_0_0_1_1_n_n.rhsIdx_val_of_single rfl i q
theorem seg_rhs_1 (i : S100x64.Idx) (q : dot_S10000x100_S10000x64_S100x64_0_0_1_1_n_n.contr.Idx) :
    (dot_S10000x100_S10000x64_S100x64_0_0_1_1_n_n.rhsIdx i q 1).val = (i 1).val := by
  unfold DotDims.rhsIdx
  rw [dif_neg (show ¬(1 : Fin S10000x64.rank) ∈ dot_S10000x100_S10000x64_S100x64_0_0_1_1_n_n.rhsBatch by decide), dif_pos (show (1 : Fin S10000x64.rank) ∈ dot_S10000x100_S10000x64_S100x64_0_0_1_1_n_n.rhsNonContracting by decide)]
  rfl

/-- The segment sum at (graph `g`, feature `f`): the sum over the block's ten thousand rows of the mask's entry times
    the value's. -/
theorem seg_apply (M : FVec Ideal S10000x100 .f32) (X : FVec Ideal S10000x64 .f32) (g : Fin 100) (f : Fin 64) :
    matmul dot_S10000x100_S10000x64_S100x64_0_0_1_1_n_n (some .fp32) M X (constant (F := Ideal) S100x64 .f32 0x00000000#32) (ix2 g f)
      = ∑ r : Fin 10000, M (ix2 r g) * X (ix2 r f) := by
  simp only [matmul]
  rw [Ideal.matmul_constant_zero_apply, ← Equiv.sum_comp (contrEquiv1 dot_S10000x100_S10000x64_S100x64_0_0_1_1_n_n 10000 rfl rfl).symm]
  refine Finset.sum_congr rfl fun k _ => ?_
  have hk := contrEquiv1_symm_val dot_S10000x100_S10000x64_S100x64_0_0_1_1_n_n 10000 rfl rfl k
  have el : dot_S10000x100_S10000x64_S100x64_0_0_1_1_n_n.lhsIdx (ix2 g f) ((contrEquiv1 dot_S10000x100_S10000x64_S100x64_0_0_1_1_n_n 10000 rfl rfl).symm k) = ix2 k g := funext fun a => Fin.ext (by
    match a with
    | ⟨0, _⟩ => exact (seg_lhs_0 _ _).trans hk
    | ⟨1, _⟩ => exact seg_lhs_1 _ _)
  have er : dot_S10000x100_S10000x64_S100x64_0_0_1_1_n_n.rhsIdx (ix2 g f) ((contrEquiv1 dot_S10000x100_S10000x64_S100x64_0_0_1_1_n_n 10000 rfl rfl).symm k) = ix2 k f := funext fun a => Fin.ext (by
    match a with
    | ⟨0, _⟩ => exact (seg_rhs_0 _ _).trans hk
    | ⟨1, _⟩ => exact seg_rhs_1 _ _)
  rw [el, er]

/-! ## The accumulating store's payload at an index -/

/-- What a point adds at (graph `g`, feature `f`): onto what the block held, the one-hot-weighted sum over the point's
    rows of the squared centred values, a row centred by the one-hot selection of the means. -/
theorem pay2_apply (v3 : Vec Ideal S10000x64 .f32) (v5 : Vec Ideal S10000x1 .i32) (v7 v18 : Vec Ideal S100x64 .f32)
    (g : Fin 100) (f : Fin 64) :
    k2_pay2 (F := Ideal) v3 v5 v7 v18 (ix2 g f)
      = v18 (ix2 g f) + ohSeg (fun r : Fin 10000 => v5 (ix2 r 0))
          (fun r : Fin 10000 => (v3 (ix2 r f) - ohSel (v5 (ix2 r 0)) v7 f) * (v3 (ix2 r f) - ohSel (v5 (ix2 r 0)) v7 f)) g := by
  unfold k2_pay2
  simp only [shapeCast_self]
  rw [addf_apply, seg_apply]
  unfold ohSeg
  refine congrArg (v18 (ix2 g f) + ·) (Finset.sum_congr rfl fun r _ => ?_)
  rw [mulf_apply, subf_apply, sel_apply]
  unfold ohSel
  have hs : ∀ g' : Fin 100, (sitofp (F := Ideal) .f32 (extui 32 (cmpi .eq (broadcastTo S10000x100 v5 broadcasts_S10000x1_S10000x100)
      (iota .tc S10000x100 32 [1] iota_S10000x100_d1_w32)) natLt_1_32) : FVec Ideal S10000x100 .f32) (ix2 r g')
        = oh (v5 (ix2 r 0)) g' := fun g' => mask_apply v5 r g'
  simp only [hs]

/-! ## The input blocks as rows of their arrays -/

variable (V : (c : Dev nD) → (b : Ref sig .tc) → Buf (Elt Ideal) ((c : Thread nD τ).loc b))

/-- The three input blocks at a point, at their literal types. -/
abbrev aggBlk (c : Dev nD) (t : Fin cfg2.N) : Vec Ideal S10000x64 .f32 := iblk2 (F := Ideal) V c 0 t
abbrev wordBlk (c : Dev nD) (t : Fin cfg2.N) : Vec Ideal S10000x1 .i32 := iblk2 (F := Ideal) V c 1 t
abbrev muBlk (c : Dev nD) (t : Fin cfg2.N) : Vec Ideal S100x64 .f32 := iblk2 (F := Ideal) V c 2 t

/-- Row `r` of the aggregate's block at point `t` is the aggregate's row at node `r` of block `t`. -/
theorem aggBlk_apply (c : Dev nD) (t : Fin cfg2.N) (ht : t.val < 10) (r : Fin 10000) (f : Fin 64) :
    aggBlk V c t (ix2 r f) = aggArr V c (ix2 (node ⟨t.val, ht⟩ r) f) := by
  have hi : win2_0.index t 0 = t.val ∧ win2_0.index t 1 = 0 :=
    (by decide +kernel : ∀ t : Fin grid2.N, win2_0.index t 0 = t.val ∧ win2_0.index t 1 = 0) t
  unfold aggBlk iblk2
  rw [View.read_apply]
  show V c main_v19 _ = V c main_v19 _
  congr 1
  funext a
  apply Fin.ext
  match a with
  | ⟨0, _⟩ => show win2_0.index t 0 * 10000 + 1 * r.val = t.val * 10000 + r.val; rw [hi.1]; omega
  | ⟨1, _⟩ => show win2_0.index t 1 * 64 + 1 * f.val = f.val; rw [hi.2]; omega

/-- Row `r` of the word column's block at point `t` is the word of node `r` of block `t`. -/
theorem wordBlk_apply (c : Dev nD) (t : Fin cfg2.N) (ht : t.val < 10) (r : Fin 10000) :
    wordBlk V c t (ix2 r 0) = bCol V c (ix2 (node ⟨t.val, ht⟩ r) 0) := by
  have hi : win2_1.index t 0 = t.val ∧ win2_1.index t 1 = 0 :=
    (by decide +kernel : ∀ t : Fin grid2.N, win2_1.index t 0 = t.val ∧ win2_1.index t 1 = 0) t
  unfold wordBlk iblk2
  rw [View.read_apply]
  show V c main_v20 _ = V c main_v20 _
  congr 1
  funext a
  apply Fin.ext
  match a with
  | ⟨0, _⟩ => show win2_1.index t 0 * 10000 + 1 * r.val = t.val * 10000 + r.val; rw [hi.1]; omega
  | ⟨1, _⟩ => show win2_1.index t 1 * 1 + 1 * 0 = 0; rw [hi.2]

/-- The means' block is the whole table at every point. -/
theorem muBlk_eq (c : Dev nD) (t : Fin cfg2.N) : muBlk V c t = muArr V c := by
  have hi : win2_2.index t 0 = 0 ∧ win2_2.index t 1 = 0 :=
    (by decide +kernel : ∀ t : Fin grid2.N, win2_2.index t 0 = 0 ∧ win2_2.index t 1 = 0) t
  funext j
  unfold muBlk iblk2
  rw [View.read_apply]
  show V c main_v25 _ = V c main_v25 _
  congr 1
  funext a
  apply Fin.ext
  match a with
  | ⟨0, _⟩ => show win2_2.index t 0 * 100 + 1 * (j 0).val = (j 0).val; rw [hi.1]; omega
  | ⟨1, _⟩ => show win2_2.index t 1 * 64 + 1 * (j 1).val = (j 1).val; rw [hi.2]; omega

/-! ## A point's term, and the block after each point -/

/-- What block `t` of the nodes adds at (graph `g`, feature `f`): the one-hot-weighted sum of its squared centred values. -/
def blockTerm (c : Dev nD) (g : Fin 100) (f : Fin 64) (t : Fin 10) : EReal :=
  ohSeg (fun r : Fin 10000 => bCol V c (ix2 (node t r) 0))
    (fun r : Fin 10000 => centred V c (node t r) f * centred V c (node t r) f) g

/-- The same over the naturals: nothing past the tenth block. -/
def blockTermN (c : Dev nD) (g : Fin 100) (f : Fin 64) (n : ℕ) : EReal :=
  if h : n < 10 then blockTerm V c g f ⟨n, h⟩ else 0

/-- A row's term depends only on its word, its aggregate entry and the table of means. -/
theorem rowTerm_congr (w w' : BitVec 32) (a a' : EReal) (M M' : S100x64.Idx → EReal) (g : Fin 100) (f : Fin 64)
    (hw : w = w') (ha : a = a') (hM : M = M') :
    oh w g * ((a - ohSel w M f) * (a - ohSel w M f)) = oh w' g * ((a' - ohSel w' M' f) * (a' - ohSel w' M' f)) := by
  subst hw ha hM; rfl

/-- The accumulating payload at point `t`, over the point's blocks: the contents on entry plus block `t`'s term. -/
theorem point_value (c : Dev nD) (t : Fin cfg2.N) (xo : Vec Ideal S100x64 .f32) (g : Fin 100) (f : Fin 64) :
    k2_pay2 (F := Ideal) (aggBlk V c t) (wordBlk V c t) (muBlk V c t) xo (ix2 g f)
      = xo (ix2 g f) + blockTermN V c g f t.val := by
  have ht : t.val < 10 := lt_of_lt_of_eq t.isLt (show cfg2.N = 10 from N_2)
  refine (pay2_apply (aggBlk V c t) (wordBlk V c t) (muBlk V c t) xo g f).trans ?_
  refine congrArg (xo (ix2 g f) + ·) ?_
  unfold blockTermN
  rw [dif_pos ht]
  unfold blockTerm ohSeg
  refine Finset.sum_congr rfl fun r _ => ?_
  exact rowTerm_congr _ _ _ _ _ _ g f (wordBlk_apply V c t ht r) (aggBlk_apply V c t ht r f) (muBlk_eq V c t)

/-- After point `n` the block holds, at (g, f), the sum of the terms of blocks 0 … n: the first point starts from the
    zero block, each later one adds onto what the point before left. -/
theorem outsAt_eq (c : Dev nD) (g : Fin 100) (f : Fin 64) : ∀ (n : ℕ) (h : n < cfg2.N),
    outsAt2 (F := Ideal) V c n h (ix2 g f) = ∑ i ∈ Finset.range (n + 1), blockTermN V c g f i
  | 0, h => by
    have e : outsAt2 (F := Ideal) V c 0 h
        = k2_pay2 (F := Ideal) (aggBlk V c ⟨0, h⟩) (wordBlk V c ⟨0, h⟩) (muBlk V c ⟨0, h⟩) (k2_pay1 (F := Ideal)) :=
      (outsAt2_A (F := Ideal) V c ⟨0, h⟩ (Nat.zero_mod _)).trans
        (firstPoint_block c (grid2.coords ⟨0, h⟩) (ms2_0 ⟨0, h⟩) (hs2_0 ⟨0, h⟩) (ms2_1 ⟨0, h⟩) (hs2_1 ⟨0, h⟩)
          (ms2_2 ⟨0, h⟩) (hs2_2 ⟨0, h⟩) (ms2_3 ⟨0, h⟩) (hs2_3 ⟨0, h⟩) ((hcond2_0 ⟨0, h⟩).mpr (Nat.zero_mod _))
          (aggBlk V c ⟨0, h⟩) (wordBlk V c ⟨0, h⟩) (muBlk V c ⟨0, h⟩))
    rw [e, point_value V c ⟨0, h⟩ (k2_pay1 (F := Ideal)) g f, Finset.sum_range_one]
    show Ideal.ofBits .f32 0x00000000#32 + _ = _
    rw [Ideal.ofBits_zero_f32, zero_add]
  | n + 1, h => by
    have hN : cfg2.N = 10 := N_2
    have hB : ¬(⟨n + 1, h⟩ : Fin cfg2.N).val % 10 = 0 := by dsimp only; omega
    have e : outsAt2 (F := Ideal) V c (n + 1) h
        = k2_pay2 (F := Ideal) (aggBlk V c ⟨n + 1, h⟩) (wordBlk V c ⟨n + 1, h⟩) (muBlk V c ⟨n + 1, h⟩)
            (outsAt2 (F := Ideal) V c n (Nat.lt_of_succ_lt h)) :=
      (outsAt2_B (F := Ideal) V c ⟨n + 1, h⟩ hB).trans
        (laterPoint_block c (grid2.coords ⟨n + 1, h⟩) (ms2_0 ⟨n + 1, h⟩) (hs2_0 ⟨n + 1, h⟩) (ms2_1 ⟨n + 1, h⟩) (hs2_1 ⟨n + 1, h⟩)
          (ms2_2 ⟨n + 1, h⟩) (hs2_2 ⟨n + 1, h⟩) (ms2_3 ⟨n + 1, h⟩) (hs2_3 ⟨n + 1, h⟩) (fun hh => hB ((hcond2_0 ⟨n + 1, h⟩).mp hh))
          (aggBlk V c ⟨n + 1, h⟩) (wordBlk V c ⟨n + 1, h⟩) (muBlk V c ⟨n + 1, h⟩) (outsAt2 (F := Ideal) V c n (Nat.lt_of_succ_lt h)))
    rw [e, point_value V c ⟨n + 1, h⟩ (outsAt2 (F := Ideal) V c n (Nat.lt_of_succ_lt h)) g f, outsAt_eq c g f n (Nat.lt_of_succ_lt h),
      Finset.sum_range_succ (blockTermN V c g f) (n + 1)]

/-! ## From the last point's block to the array -/

/-- What the block holds after the last point. -/
abbrev lastBlock (c : Dev nD) : Buf (Elt Ideal) ((c : Thread nD τ).loc main_v26) := outsAt2 (F := Ideal) V c t2_9.val t2_9.isLt

/-- The one write-back, after point 9, writes it: block (0, 0) of the [100,64] array read through zero offsets is the array. -/
theorem flushed_eq (c : Dev nD) (t : Fin cfg2.N) (hf : (cfg2.win 3).flush t = true) :
    (dat2 (F := Ideal) V c).flushed 3 t = ((cfg2.win 3).blk t).view.read (Elt Ideal) (lastBlock V c) := by
  have hN : cfg2.N = 10 := N_2
  have h9 : t.val = 9 := by have := (flush2_3 t).mp hf; have := t.isLt; omega
  obtain rfl : t = t2_9 := Fin.ext h9
  show (cfg2.win 3).cut (grid2.coords t2_9) ((dat2 (F := Ideal) V c).after 3 t2_9) = _
  rw [after2_3]
  have hz' : (fun a => win2_3.index t2_9 a * main_v26.ty.shape.size a) = fun _ => 0 := funext fun a => by fin_cases a <;> decide +kernel
  exact (Memref.read_access_unit_zero (Elt Ideal) main_v26 hz' (fun a => by rw [congrFun hz' a]; simp) (lastBlock V c)).symm

/-- So the array ends holding the last point's block: that point's block covers every index. -/
theorem varSumOut_eq (c : Dev nD) : varSumOut V c = lastBlock V c :=
  (dat2 (F := Ideal) V c).arrAt_eq_of_cover 3 (lastBlock V c) (flushed_eq V c) fun i =>
    ⟨t2_9, (flush2_3 t2_9).mpr rfl, by
      show i ∈ ((View.whole main_v26).slice (win2_3.rect t2_9)).set
      rw [View.set_slice_whole, Rect.mem_set_unit]
      intro a
      have h0 : (i 0 : Nat) < 100 := (i 0).isLt
      have h1 : (i 1 : Nat) < 64 := (i 1).isLt
      match a with
      | ⟨0, _⟩ => show win2_3.index t2_9 0 * win2_3.size 0 ≤ (i 0 : Nat) ∧ (i 0 : Nat) < win2_3.index t2_9 0 * win2_3.size 0 + win2_3.xsize (grid2.coords t2_9) 0
                  rw [show win2_3.index t2_9 0 * win2_3.size 0 = 0 from by decide +kernel, show win2_3.xsize (grid2.coords t2_9) 0 = 100 from by decide +kernel]; omega
      | ⟨1, _⟩ => show win2_3.index t2_9 1 * win2_3.size 1 ≤ (i 1 : Nat) ∧ (i 1 : Nat) < win2_3.index t2_9 1 * win2_3.size 1 + win2_3.xsize (grid2.coords t2_9) 1
                  rw [show win2_3.index t2_9 1 * win2_3.size 1 = 0 from by decide +kernel, show win2_3.xsize (grid2.coords t2_9) 1 = 64 from by decide +kernel]; omega⟩

end Reg2

open Reg2

variable (V : (c : Dev nD) → (b : Ref sig .tc) → Buf (Elt Ideal) ((c : Thread nD τ).loc b))

/-- The per-graph sum-of-squares array the third region leaves, at graph `g`, feature `f`. -/
theorem value2 (c : Dev nD) (g : Fin 100) (f : Fin 64) :
    varSumOut V c (ix2 g f)
      = ∑ t : Fin 10, ohSeg (fun r : Fin 10000 => bCol V c (ix2 (node t r) 0))
          (fun r : Fin 10000 => centred V c (node t r) f * centred V c (node t r) f) g := by
  refine (congrFun (varSumOut_eq V c) (ix2 g f)).trans ?_
  refine (outsAt_eq V c g f t2_9.val t2_9.isLt).trans ?_
  show ∑ i ∈ Finset.range 10, blockTermN V c g f i = _
  rw [← Fin.sum_univ_eq_sum_range (blockTermN V c g f) 10]
  refine Finset.sum_congr rfl fun t _ => ?_
  unfold blockTermN
  rw [dif_pos t.isLt]
  rfl

end Cert.KernelIdeal.GN

end
-- ==== Proof.KReg3.lean ====
/-
  The fourth kernel's array: each row centred, divided by its graph's deviation plus the small constant, scaled and
  shifted; each grid point normalizes its own block of rows and the blocks tile the array.
-/
import proofs.«140284_j83322365542770_1_alg».proof.Proof.Gen.KernelIdeal.Frame
import proofs.«140284_j83322365542770_1_alg».proof.Proof.Spec
import Idealize.ShloMosaic.Lib.Pipeline.Value
import Idealize.ShloMosaic.PureOps.Ideal.Laws
import proofs.«140284_j83322365542770_1_alg».proof.Proof.KNames

set_option maxRecDepth 16384

noncomputable section

namespace Cert.KernelIdeal.GN

open Idealize.ShloMosaic Idealize.ShloMosaic.TcCoe Idealize.SL.Sem Idealize.ShloMosaic.ValueIdx
open Idealize.ShloMosaic.Pipeline (Dat)
open Cert.KernelIdeal Cert.KernelIdeal.Gen Cert.GN
open scoped BigOperators

variable (V : (c : Dev nD) → (b : Ref sig .tc) → Buf (Elt Ideal) ((c : Thread nD τ).loc b))

/-! The pieces below belong to the normalize region alone. -/
namespace Norm

/-- A graph-word column spread over a hundred lanes reads, at row `r`, the column's word at that row. -/
theorem spreadCol_apply (v : IVec S10000x1 32) (r : Fin 10000) (g : Fin 100) :
    broadcastTo S10000x100 v broadcasts_S10000x1_S10000x100 (ix2 r g) = v (ix2 r 0) := by
  refine broadcastTo_apply v broadcasts_S10000x1_S10000x100 (ix2 r g) (ix2 r 0) fun ax => ?_
  match ax with
  | ⟨0, _⟩ => rfl
  | ⟨1, _⟩ => rfl

/-- The lane counter along the second axis reads the lane's number. -/
theorem lane_apply (r : Fin 10000) (g : Fin 100) :
    iota .tc S10000x100 32 [1] iota_S10000x100_d1_w32 (ix2 r g) = BitVec.ofNat 32 g.val :=
  iota_single_apply .tc S10000x100 32 1 iota_S10000x100_d1_w32 (ix2 r g)

/-- The one-hot mask at row `r`, lane `g`: the comparison's bit, widened and converted, is 1 when the row's graph
    word is `g` and 0 otherwise. -/
theorem mask_apply (v : IVec S10000x1 32) (r : Fin 10000) (g : Fin 100) :
    (sitofp .f32 (extui 32 (cmpi .eq (broadcastTo S10000x100 v broadcasts_S10000x1_S10000x100)
        (iota .tc S10000x100 32 [1] iota_S10000x100_d1_w32)) natLt_1_32) : FVec Ideal S10000x100 .f32) (ix2 r g)
      = oh (v (ix2 r 0)) g := by
  show FloatOps.sitofp .f32 ((IntOp.cmpi .eq (broadcastTo S10000x100 v broadcasts_S10000x1_S10000x100 (ix2 r g))
      (iota .tc S10000x100 32 [1] iota_S10000x100_d1_w32 (ix2 r g))).setWidth 32) = _
  rw [spreadCol_apply, lane_apply]
  unfold oh
  by_cases h : v (ix2 r 0) = BitVec.ofNat 32 g.val
  · rw [if_pos h, h]
    have e : IntOp.cmpi .eq (BitVec.ofNat 32 g.val) (BitVec.ofNat 32 g.val) = 1#1 := by
      simp [IntOp.cmpi]
    rw [e]
    show (((BitVec.setWidth 32 1#1).toInt : ℝ) : EReal) = 1
    rw [show (BitVec.setWidth 32 1#1).toInt = 1 from by decide]
    simp
  · rw [if_neg h]
    have e : IntOp.cmpi .eq (v (ix2 r 0)) (BitVec.ofNat 32 g.val) = 0#1 := by
      show BitVec.ofBool (v (ix2 r 0) == BitVec.ofNat 32 g.val) = 0#1
      rw [beq_eq_false_iff_ne.mpr h]
      rfl
    rw [e]
    show (((BitVec.setWidth 32 0#1).toInt : ℝ) : EReal) = 0
    rw [show (BitVec.setWidth 32 0#1).toInt = 0 from by decide]
    simp

/-! The mask-times-table product: its left operand is read at (row, lane), its right at (lane, feature). -/

theorem selL_0 (i : S10000x64.Idx) (q : dot_S10000x100_S100x64_S10000x64_1_0_0_1_n_n.contr.Idx) :
    (dot_S10000x100_S100x64_S10000x64_1_0_0_1_n_n.lhsIdx i q 0).val = (i 0).val := by
  unfold DotDims.lhsIdx
  rw [dif_neg (show ¬(0 : Fin S10000x100.rank) ∈ dot_S10000x100_S100x64_S10000x64_1_0_0_1_n_n.lhsBatch by decide), dif_pos (show (0 : Fin S10000x100.rank) ∈ dot_S10000x100_S100x64_S10000x64_1_0_0_1_n_n.lhsNonContracting by decide)]
  rfl
theorem selL_1 (i : S10000x64.Idx) (q : dot_S10000x100_S100x64_S10000x64_1_0_0_1_n_n.contr.Idx) :
    (dot_S10000x100_S100x64_S10000x64_1_0_0_1_n_n.lhsIdx i q 1).val = (q ⟨0, by decide⟩).val :=
  dot_S10000x100_S100x64_S10000x64_1_0_0_1_n_n.lhsIdx_val_of_single rfl i q
theorem selR_0 (i : S10000x64.Idx) (q : dot_S10000x100_S100x64_S10000x64_1_0_0_1_n_n.contr.Idx) :
    (dot_S10000x100_S100x64_S10000x64_1_0_0_1_n_n.rhsIdx i q 0).val = (q ⟨0, by decide⟩).val :=
  dot_S10000x100_S100x64_S10000x64_1_0_0_1_n_n.rhsIdx_val_of_single rfl i q
theorem selR_1 (i : S10000x64.Idx) (q : dot_S10000x100_S100x64_S10000x64_1_0_0_1_n_n.contr.Idx) :
    (dot_S10000x100_S100x64_S10000x64_1_0_0_1_n_n.rhsIdx i q 1).val = (i 1).val := by
  unfold DotDims.rhsIdx
  rw [dif_neg (show ¬(1 : Fin S100x64.rank) ∈ dot_S10000x100_S100x64_S10000x64_1_0_0_1_n_n.rhsBatch by decide), dif_pos (show (1 : Fin S100x64.rank) ∈ dot_S10000x100_S100x64_S10000x64_1_0_0_1_n_n.rhsNonContracting by decide)]
  rfl

/-- A [10000,100] by [100,64] product into the zero array, at row `r` and feature `f`: the sum over the hundred
    lanes of the left entry times the table's entry. -/
theorem prod_apply (L : FVec Ideal S10000x100 .f32) (M : FVec Ideal S100x64 .f32) (r : Fin 10000) (f : Fin 64) :
    matmul dot_S10000x100_S100x64_S10000x64_1_0_0_1_n_n (some .fp32) L M (constant (F := Ideal) S10000x64 .f32 0x00000000#32) (ix2 r f)
      = ∑ g : Fin 100, L (ix2 r g) * M (ix2 g f) := by
  simp only [matmul]
  rw [Ideal.matmul_constant_zero_apply, ← Equiv.sum_comp (contrEquiv1 dot_S10000x100_S100x64_S10000x64_1_0_0_1_n_n 100 rfl rfl).symm]
  refine Finset.sum_congr rfl fun k _ => ?_
  have hk := contrEquiv1_symm_val dot_S10000x100_S100x64_S10000x64_1_0_0_1_n_n 100 rfl rfl k
  have el : dot_S10000x100_S100x64_S10000x64_1_0_0_1_n_n.lhsIdx (ix2 r f) ((contrEquiv1 dot_S10000x100_S100x64_S10000x64_1_0_0_1_n_n 100 rfl rfl).symm k) = ix2 r k := funext fun a => Fin.ext (by
    match a with
    | ⟨0, _⟩ => exact selL_0 _ _
    | ⟨1, _⟩ => exact (selL_1 _ _).trans hk)
  have er : dot_S10000x100_S100x64_S10000x64_1_0_0_1_n_n.rhsIdx (ix2 r f) ((contrEquiv1 dot_S10000x100_S100x64_S10000x64_1_0_0_1_n_n 100 rfl rfl).symm k) = ix2 k f := funext fun a => Fin.ext (by
    match a with
    | ⟨0, _⟩ => exact (selR_0 _ _).trans hk
    | ⟨1, _⟩ => exact selR_1 _ _)
  rw [el, er]

/-- The mask times a table, at row `r` and feature `f`: the one-hot selection of the table's column `f` by the row's
    graph word. -/
theorem sel_apply (v : IVec S10000x1 32) (M : FVec Ideal S100x64 .f32) (r : Fin 10000) (f : Fin 64) :
    matmul dot_S10000x100_S100x64_S10000x64_1_0_0_1_n_n (some .fp32)
        (sitofp .f32 (extui 32 (cmpi .eq (broadcastTo S10000x100 v broadcasts_S10000x1_S10000x100)
          (iota .tc S10000x100 32 [1] iota_S10000x100_d1_w32)) natLt_1_32))
        M (constant (F := Ideal) S10000x64 .f32 0x00000000#32) (ix2 r f)
      = ohSel (v (ix2 r 0)) M f := by
  rw [prod_apply]
  exact Finset.sum_congr rfl fun g _ => congrArg (· * M (ix2 g f)) (mask_apply v r g)

/-- A [1,64] row spread over ten thousand rows reads the row at the feature. -/
theorem spreadRow_apply (v : FVec Ideal S1x64 .f32) (r : Fin 10000) (f : Fin 64) :
    broadcastTo S10000x64 v broadcasts_S1x64_S10000x64 (ix2 r f) = v (ix2 0 f) := by
  refine broadcastTo_apply v broadcasts_S1x64_S10000x64 (ix2 r f) (ix2 0 f) fun ax => ?_
  match ax with
  | ⟨0, _⟩ => rfl
  | ⟨1, _⟩ => rfl

/-- The normalize kernel's stored value at row `r`, feature `f` of its block: the row's entry less the one-hot
    selection of the means, divided by the one-hot selection of the deviations plus the small constant, scaled and
    shifted by the two rows. -/
theorem pay_apply (v0 : Vec Ideal S10000x64 .f32) (v2 : Vec Ideal S10000x1 .i32) (v4 v6 : Vec Ideal S100x64 .f32)
    (v8 v10 : Vec Ideal S1x64 .f32) (r : Fin 10000) (f : Fin 64) :
    k3_pay1 v0 v2 v4 v6 v8 v10 (ix2 r f)
      = Ideal.div (v0 (ix2 r f) - ohSel (v2 (ix2 r 0)) v4 f)
            (ohSel (v2 (ix2 r 0)) v6 f + Ideal.ofBits .f32 0x358637BD#32)
          * v8 (ix2 0 f) + v10 (ix2 0 f) := by
  unfold k3_pay1
  simp only [shapeCast_self]
  show Ideal.div (v0 (ix2 r f) - matmul dot_S10000x100_S100x64_S10000x64_1_0_0_1_n_n (some .fp32) _ v4 (constant (F := Ideal) S10000x64 .f32 0x00000000#32) (ix2 r f))
        (matmul dot_S10000x100_S100x64_S10000x64_1_0_0_1_n_n (some .fp32) _ v6 (constant (F := Ideal) S10000x64 .f32 0x00000000#32) (ix2 r f) + Ideal.ofBits .f32 0x358637BD#32)
      * broadcastTo S10000x64 v8 broadcasts_S1x64_S10000x64 (ix2 r f) + broadcastTo S10000x64 v10 broadcasts_S1x64_S10000x64 (ix2 r f) = _
  rw [sel_apply v2 v4 r f, sel_apply v2 v6 r f, spreadRow_apply, spreadRow_apply]

/-! ## From the blocks to the array -/

/-- The normalized value of node `n` at feature `f`, from the arrays the region finds. -/
def normAt (c : Dev nD) (n : Fin 100000) (f : Fin 64) : EReal :=
  Ideal.div (centred V c n f) (ohSel (bCol V c (ix2 n 0)) (sgArr V c) f + Ideal.ofBits .f32 0x358637BD#32)
    * gamRow V c (ix2 0 f) + betRow V c (ix2 0 f)

/-- The whole normalized array. -/
def normArr (c : Dev nD) : S100000x64.Idx → EReal :=
  fun i => normAt V c ⟨(i 0).val, idx2_lt0 i⟩ ⟨(i 1).val, idx2_lt1 i⟩

theorem normAt_congr (c : Dev nD) {n n' : Fin 100000} {f f' : Fin 64} (hn : n.val = n'.val) (hf : f.val = f'.val) :
    normAt V c n f = normAt V c n' f' := by
  obtain rfl := Fin.ext hn
  obtain rfl := Fin.ext hf
  rfl

theorem hz : (![0, 0] : Fin 2 → Nat) = fun _ => 0 := funext fun a => by fin_cases a <;> rfl

/-- The block each window shows at grid point `t`: block `t` of the rows for the aggregates, the graph words and the
    result; the one whole block for the two tables and the two rows. -/
theorem blockAt : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The aggregates' block at point `t`, row `r`: node `10000 t + r` of the array. -/
theorem aggBlk_apply (c : Dev nD) (t : Fin cfg3.N) (r : Fin 10000) (f : Fin 64) (n : Fin 100000)
    (hn : n.val = t.val * 10000 + r.val) :
    (iblk3 V c 0 t : Vec Ideal S10000x64 .f32) (ix2 r f) = aggArr V c (ix2 n f) := by
  obtain ⟨e0, e1, -⟩ := blockAt t
  unfold iblk3
  rw [View.read_apply]
  show V c main_v19 _ = V c main_v19 _
  congr 1
  funext a
  apply Fin.ext
  match a with
  | ⟨0, _⟩ => show win3_0.index t (0 : Fin 2) * 10000 + 1 * r.val = n.val; rw [e0, hn]; omega
  | ⟨1, _⟩ => show win3_0.index t (1 : Fin 2) * 64 + 1 * f.val = f.val; rw [e1]; omega

/-- The graph words' block at point `t`, row `r`: node `10000 t + r`'s word. -/
theorem wordBlk_apply (c : Dev nD) (t : Fin cfg3.N) (r : Fin 10000) (n : Fin 100000)
    (hn : n.val = t.val * 10000 + r.val) :
    (iblk3 V c 1 t : Vec Ideal S10000x1 .i32) (ix2 r 0) = bCol V c (ix2 n 0) := by
  obtain ⟨-, -, e0, e1, -⟩ := blockAt t
  unfold iblk3
  rw [View.read_apply]
  show V c main_v20 _ = V c main_v20 _
  congr 1
  funext a
  apply Fin.ext
  match a with
  | ⟨0, _⟩ => show win3_1.index t (0 : Fin 2) * 10000 + 1 * r.val = n.val; rw [e0, hn]; omega
  | ⟨1, _⟩ => show win3_1.index t (1 : Fin 2) * 1 + 1 * 0 = 0; rw [e1]

/-- The means' block is the whole table. -/
theorem muBlk_eq (c : Dev nD) (t : Fin cfg3.N) : (iblk3 V c 2 t : Vec Ideal S100x64 .f32) = muArr V c := by
  obtain ⟨-, -, -, -, e0, e1, -⟩ := blockAt t
  funext j
  unfold iblk3
  rw [View.read_apply]
  show V c main_v25 _ = V c main_v25 j
  congr 1
  funext a
  apply Fin.ext
  match a with
  | ⟨0, _⟩ => show win3_2.index t (0 : Fin 2) * 100 + 1 * (j 0).val = (j 0).val; rw [e0]; omega
  | ⟨1, _⟩ => show win3_2.index t (1 : Fin 2) * 64 + 1 * (j 1).val = (j 1).val; rw [e1]; omega

/-- The deviations' block is the whole table. -/
theorem sgBlk_eq (c : Dev nD) (t : Fin cfg3.N) : (iblk3 V c 3 t : Vec Ideal S100x64 .f32) = sgArr V c := by
  obtain ⟨-, -, -, -, -, -, e0, e1, -⟩ := blockAt t
  funext j
  unfold iblk3
  rw [View.read_apply]
  show V c main_v33 _ = V c main_v33 j
  congr 1
  funext a
  apply Fin.ext
  match a with
  | ⟨0, _⟩ => show win3_3.index t (0 : Fin 2) * 100 + 1 * (j 0).val = (j 0).val; rw [e0]; omega
  | ⟨1, _⟩ => show win3_3.index t (1 : Fin 2) * 64 + 1 * (j 1).val = (j 1).val; rw [e1]; omega

/-- The scale row's block is the whole row. -/
theorem gamBlk_eq (c : Dev nD) (t : Fin cfg3.N) : (iblk3 V c 4 t : Vec Ideal S1x64 .f32) = gamRow V c := by
  obtain ⟨-, -, -, -, -, -, -, -, e0, e1, -⟩ := blockAt t
  funext j
  unfold iblk3
  rw [View.read_apply]
  show V c main_v34 _ = V c main_v34 j
  congr 1
  funext a
  apply Fin.ext
  match a with
  | ⟨0, _⟩ => show win3_4.index t (0 : Fin 2) * 1 + 1 * (j 0).val = (j 0).val; rw [e0]; omega
  | ⟨1, _⟩ => show win3_4.index t (1 : Fin 2) * 64 + 1 * (j 1).val = (j 1).val; rw [e1]; omega

/-- The shift row's block is the whole row. -/
theorem betBlk_eq (c : Dev nD) (t : Fin cfg3.N) : (iblk3 V c 5 t : Vec Ideal S1x64 .f32) = betRow V c := by
  obtain ⟨-, -, -, -, -, -, -, -, -, -, e0, e1, -⟩ := blockAt t
  funext j
  unfold iblk3
  rw [View.read_apply]
  show V c main_v35 _ = V c main_v35 j
  congr 1
  funext a
  apply Fin.ext
  match a with
  | ⟨0, _⟩ => show win3_5.index t (0 : Fin 2) * 1 + 1 * (j 0).val = (j 0).val; rw [e0]; omega
  | ⟨1, _⟩ => show win3_5.index t (1 : Fin 2) * 64 + 1 * (j 1).val = (j 1).val; rw [e1]; omega

/-- What point `t` stores at row `r`, feature `f` of its block: the normalized value of node `10000 t + r`. -/
theorem stored_apply (c : Dev nD) (t : Fin cfg3.N) (r : Fin 10000) (f : Fin 64) (n : Fin 100000)
    (hn : n.val = t.val * 10000 + r.val) :
    k3_pay1 (iblk3 V c 0 t) (iblk3 V c 1 t) (iblk3 V c 2 t) (iblk3 V c 3 t) (iblk3 V c 4 t) (iblk3 V c 5 t) (ix2 r f)
      = normAt V c n f := by
  refine (pay_apply (iblk3 V c 0 t) (iblk3 V c 1 t) (iblk3 V c 2 t) (iblk3 V c 3 t) (iblk3 V c 4 t) (iblk3 V c 5 t) r f).trans ?_
  rw [aggBlk_apply V c t r f n hn, wordBlk_apply V c t r n hn, muBlk_eq V c t, sgBlk_eq V c t, gamBlk_eq V c t, betBlk_eq V c t]
  rfl

/-- What point `t` writes back is block `t` of the normalized array. -/
theorem writtenBack_eq (c : Dev nD) (t : Fin cfg3.N) :
    (dat3 V c).flushed 6 t = ((cfg3.win 6).blk t).view.read (Elt Ideal) (normArr V c) := by
  show (cfg3.win 6).cut (grid3.coords t) ((dat3 V c).after 6 t) = _
  rw [after3_6]
  unfold out3_6
  rw [View.canon_unit_zero hz]
  simp only [View.ld_unit_zero (S := S10000x64) hz, View.ld_unit_zero (S := S10000x1) hz,
    View.ld_unit_zero (S := S100x64) hz, View.ld_unit_zero (S := S1x64) hz]
  obtain ⟨-, -, -, -, -, -, -, -, -, -, -, -, e0, e1⟩ := blockAt t
  funext j
  show k3_pay1 (iblk3 V c 0 t) (iblk3 V c 1 t) (iblk3 V c 2 t) (iblk3 V c 3 t) (iblk3 V c 4 t) (iblk3 V c 5 t) j
    = normArr V c (((cfg3.win 6).blk t).view.emb j)
  have hj : (j : S10000x64.Idx) = ix2 (j 0) (j 1) := eq_ix2 j
  have ht : t.val < 10 := lt_of_lt_of_eq t.isLt N_3
  refine (congrArg (k3_pay1 (iblk3 V c 0 t) (iblk3 V c 1 t) (iblk3 V c 2 t) (iblk3 V c 3 t) (iblk3 V c 4 t) (iblk3 V c 5 t)) hj).trans ?_
  refine (stored_apply V c t (j 0) (j 1) ⟨t.val * 10000 + (j 0).val, by have := idx2_lt0 (n0 := 10000) (n1 := 64) j; omega⟩ rfl).trans ?_
  unfold normArr
  refine normAt_congr V c ?_ ?_
  · show t.val * 10000 + (j 0).val = win3_6.index t (0 : Fin 2) * 10000 + 1 * (j 0).val
    rw [e0]; omega
  · show (j 1).val = win3_6.index t (1 : Fin 2) * 64 + 1 * (j 1).val
    rw [e1]; omega

/-- A node's row is in point `t`'s block exactly when each coordinate is in the block's range on its axis. -/
theorem mem_blk (t : Fin cfg3.N) (i : S100000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v36).slice (win3_6.rect t)).set ↔ _
  rw [View.set_slice_whole, Rect.mem_set_unit]
  exact Iff.rfl

/-- The ten blocks tile the array (node `n` lies in block `n / 10000`), so the region leaves the normalized array. -/
theorem normOut_eq (c : Dev nD) : normOut V c = normArr V c :=
  (dat3 V c).arrAt_eq_of_cover 6 (normArr V c) (fun t _ => writtenBack_eq V c t) fun i => by
    have hi0 : (i 0).val < 100000 := idx2_lt0 (n0 := 100000) (n1 := 64) i
    have hi1 : (i 1).val < 64 := idx2_lt1 (n0 := 100000) (n1 := 64) i
    have hN : cfg3.N = 10 := N_3
    refine ⟨⟨(i 0).val / 10000, by rw [hN]; omega⟩, flush3_6 _, ?_⟩
    obtain ⟨-, -, -, -, -, -, -, -, -, -, -, -, e0, e1⟩ := blockAt ⟨(i 0).val / 10000, by rw [hN]; omega⟩
    rw [mem_blk]
    intro a
    match a with
    | ⟨0, _⟩ =>
      show win3_6.index ⟨(i 0).val / 10000, _⟩ (0 : Fin 2) * 10000 ≤ (i 0).val
        ∧ (i 0).val < win3_6.index ⟨(i 0).val / 10000, _⟩ (0 : Fin 2) * 10000 + 10000
      rw [e0]
      show (i 0).val / 10000 * 10000 ≤ (i 0).val ∧ (i 0).val < (i 0).val / 10000 * 10000 + 10000
      omega
    | ⟨1, _⟩ =>
      show win3_6.index ⟨(i 0).val / 10000, _⟩ (1 : Fin 2) * 64 ≤ (i 1).val
        ∧ (i 1).val < win3_6.index ⟨(i 0).val / 10000, _⟩ (1 : Fin 2) * 64 + 64
      rw [e1]
      omega

end Norm

/-- The normalized array the fourth region leaves, read at node `r` of block `t`, feature `f`. -/
theorem value3 (c : Dev nD) (t : Fin 10) (r : Fin 10000) (f : Fin 64) :
    normOut V c (ix2 (node t r) f)
      = Ideal.div (centred V c (node t r) f)
            (ohSel (bCol V c (ix2 (node t r) 0)) (sgArr V c) f + Ideal.ofBits .f32 0x358637BD#32)
          * gamRow V c (ix2 0 f) + betRow V c (ix2 0 f) := by
  rw [Norm.normOut_eq V c]
  rfl

end Cert.KernelIdeal.GN

end
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.RefMlp.lean ====
/-
  The reference's feature transform, read at a node and a feature: the same row formula as the kernel's blocks compute,
  the three matrix products as sums over the sixty-four inner features and the rectifier between them.
-/
import proofs.«140284_j83322365542770_1_alg».proof.Proof.RefRead
import proofs.«140284_j83322365542770_1_alg».proof.Proof.Spec
import proofs.«140284_j83322365542770_1_alg».proof.Proof.LibGatherScatter
import Idealize.ShloMosaic.Lib.Pipeline.Value
import Idealize.ShloMosaic.Lib.ValueLayout

set_option maxRecDepth 16384

noncomputable section

namespace Cert.ReferenceIdeal.GN

open Idealize.ShloMosaic Idealize.ShloMosaic.TcCoe Idealize.SL.Sem Idealize.ShloMosaic.ValueIdx
open Cert.ReferenceIdeal Cert.ReferenceIdeal.Gen Cert.ReferenceIdeal.Read Cert.GN Cert.LibGatherScatter
open scoped BigOperators

variable (x0 x1 : (⟨S100000x64, .f32⟩ : BufTy).Contents (Elt Ideal)) (x2 : (⟨S2x1200000, .i32⟩ : BufTy).Contents (Elt Ideal))
  (x3 : (⟨S1200000x1, .f32⟩ : BufTy).Contents (Elt Ideal)) (x4 : (⟨S100000, .i32⟩ : BufTy).Contents (Elt Ideal))
  (x5 : (⟨S100, .i32⟩ : BufTy).Contents (Elt Ideal)) (x6 x7 x8 : (⟨S64x64, .f32⟩ : BufTy).Contents (Elt Ideal))
  (x9 x10 : (⟨S64, .f32⟩ : BufTy).Contents (Elt Ideal))

/-! ## The index functions of the three products

At the output position `(n, j)` and the inner feature `k`, each product reads its left operand at `(n, k)` and its
right operand at `(k, j)`. -/

theorem lidx1_eq (n : Fin 100000) (j k : Fin 64) : lidx_main_v1 (ix2 n j) k = ix2 n k :=
  funext fun a => by match a with | ⟨0, _⟩ => rfl | ⟨1, _⟩ => rfl
theorem ridx1_eq (n : Fin 100000) (j k : Fin 64) : ridx_main_v1 (ix2 n j) k = ix2 k j :=
  funext fun a => by match a with | ⟨0, _⟩ => rfl | ⟨1, _⟩ => rfl
theorem lidx9_eq (n : Fin 100000) (j k : Fin 64) : lidx_main_v9 (ix2 n j) k = ix2 n k :=
  funext fun a => by match a with | ⟨0, _⟩ => rfl | ⟨1, _⟩ => rfl
theorem ridx9_eq (n : Fin 100000) (j k : Fin 64) : ridx_main_v9 (ix2 n j) k = ix2 k j :=
  funext fun a => by match a with | ⟨0, _⟩ => rfl | ⟨1, _⟩ => rfl
theorem lidx16_eq (n : Fin 100000) (j k : Fin 64) : lidx_main_v16 (ix2 n j) k = ix2 n k :=
  funext fun a => by match a with | ⟨0, _⟩ => rfl | ⟨1, _⟩ => rfl
theorem ridx16_eq (n : Fin 100000) (j k : Fin 64) : ridx_main_v16 (ix2 n j) k = ix2 k j :=
  funext fun a => by match a with | ⟨0, _⟩ => rfl | ⟨1, _⟩ => rfl

/-! ## The rectifier as the reference spells it

The reference compares against a broadcast zero, multiplies by a broadcast slope, and selects: at one position that is
the leaky rectifier of the value there. -/

theorem leaky_first (i : S100000x64.Idx) (v : EReal) :
    Scalar.select (FloatOps.cmpf (F := Ideal) (φ := .f32) .oge v (val_main_v3 (F := Ideal) i)) v
      (FloatOps.mulf (F := Ideal) (φ := .f32) (val_main_v5 (F := Ideal) i) v) = leaky v := by
  rw [val_main_v3_apply, val_main_cst_apply, val_main_v5_apply, val_main_cst_0_apply]
  rfl

theorem leaky_second (i : S100000x64.Idx) (v : EReal) :
    Scalar.select (FloatOps.cmpf (F := Ideal) (φ := .f32) .oge v (val_main_v10 (F := Ideal) i)) v
      (FloatOps.mulf (F := Ideal) (φ := .f32) (val_main_v12 (F := Ideal) i) v) = leaky v := by
  rw [val_main_v10_apply, val_main_cst_1_apply, val_main_v12_apply, val_main_cst_2_apply]
  rfl

/-! ## The two hidden rows -/

/-- The first hidden layer at node `n`, feature `k`: the rectifier of the node's own feature plus the product of its
    second feature row with the first transposed weight. -/
theorem ref_row1 (n : Fin 100000) (k : Fin 64) :
    val_main_v7 (F := Ideal) x0 x1 x6 (ix2 n k)
      = row1 (fun k => x0 (ix2 n k)) (fun k => x1 (ix2 n k)) (val_main_v0 (F := Ideal) x6) k := by
  rw [val_main_v7_apply, val_main_v4_apply, val_main_v6_apply, leaky_first, val_main_v2_apply, val_main_v1_apply]
  simp only [lidx1_eq, ridx1_eq]
  rfl

/-- The second hidden layer at node `n`, feature `k`: the rectifier of the product of the first hidden row with the
    second transposed weight. -/
theorem ref_row2 (n : Fin 100000) (k : Fin 64) :
    val_main_v14 (F := Ideal) x0 x1 x6 x7 (ix2 n k)
      = row2 (fun k => x0 (ix2 n k)) (fun k => x1 (ix2 n k)) (val_main_v0 (F := Ideal) x6) (val_main_v8 (F := Ideal) x7) k := by
  rw [val_main_v14_apply, val_main_v11_apply, val_main_v13_apply, leaky_second, val_main_v9_apply]
  simp only [lidx9_eq, ridx9_eq, ref_row1]
  rfl

/-- The reference's transformed features at node `n`, feature `j`. -/
theorem ref_h (n : Fin 100000) (j : Fin 64) :
    val_main_v16 (F := Ideal) x0 x1 x6 x7 x8 (ix2 n j)
      = mlpRow (fun k => x0 (ix2 n k)) (fun k => x1 (ix2 n k)) (val_main_v0 (F := Ideal) x6) (val_main_v8 (F := Ideal) x7)
          (val_main_v15 (F := Ideal) x8) j := by
  rw [val_main_v16_apply]
  simp only [lidx16_eq, ridx16_eq, ref_row2]
  rfl

end Cert.ReferenceIdeal.GN

end
-- ==== Proof.RefStats.lean ====
/-
  The reference's graph statistics and its result, read at an index. A segment sum adds, at graph g, the rows of the
  nodes whose graph word read signed is g (a word that names no graph lands nowhere); a row gathered by a graph word
  reads the table at the word's graph, a negative word counting from the end and the result clamped into the table.
-/
import proofs.«140284_j83322365542770_1_alg».proof.Proof.RefRead
import proofs.«140284_j83322365542770_1_alg».proof.Proof.Spec
import proofs.«140284_j83322365542770_1_alg».proof.Proof.LibGatherScatter
import Idealize.ShloMosaic.Lib.Pipeline.Value
import Idealize.ShloMosaic.Lib.ValueLayout

set_option maxRecDepth 16384

noncomputable section

namespace Cert.ReferenceIdeal.GN

open Idealize.ShloMosaic Idealize.ShloMosaic.TcCoe Idealize.SL.Sem Idealize.ShloMosaic.ValueIdx
open Cert.ReferenceIdeal Cert.ReferenceIdeal.Gen Cert.ReferenceIdeal.Read Cert.GN Cert.LibGatherScatter
open scoped BigOperators

variable (x0 x1 : (⟨S100000x64, .f32⟩ : BufTy).Contents (Elt Ideal)) (x2 : (⟨S2x1200000, .i32⟩ : BufTy).Contents (Elt Ideal))
  (x3 : (⟨S1200000x1, .f32⟩ : BufTy).Contents (Elt Ideal)) (x4 : (⟨S100000, .i32⟩ : BufTy).Contents (Elt Ideal))
  (x5 : (⟨S100, .i32⟩ : BufTy).Contents (Elt Ideal)) (x6 x7 x8 : (⟨S64x64, .f32⟩ : BufTy).Contents (Elt Ideal))
  (x9 x10 : (⟨S64, .f32⟩ : BufTy).Contents (Elt Ideal))

/-- The table row a node's graph word gathers: the word wrapped when negative, then clamped into the hundred graphs. -/
def gRow (w : BitVec 32) : Fin 100 := clampIdx 100 (by decide) (wrapW 100#32 w)

/-- A word whose signed value is a graph number gathers that graph's row. -/
theorem gRow_of_inRange (w : BitVec 32) (h0 : 0 ≤ w.toInt) (h1 : w.toInt < 100) : (gRow w).val = w.toInt.toNat := by
  unfold gRow
  rw [wrapW_of_nonneg h0]
  exact clampIdx_of_inRange (by decide) h0 (by exact_mod_cast h1)

/-! ## The index columns and the zero table, read at an index -/

/-- The graph words laid out as a column (the first segment sum's scatter indices) read, at row `e`, node `e`'s word. -/
theorem col36 (e : Fin 100000) : val_main_v36 (F := Ideal) x4 (ix2 e 0) = x4 (ix1 e) :=
  bcast_col_apply bcast_S100000_S100000x1_0 x4 e 0

/-- The same column for the second segment sum. -/
theorem col50 (e : Fin 100000) : val_main_v50 (F := Ideal) x4 (ix2 e 0) = x4 (ix1 e) :=
  bcast_col_apply bcast_S100000_S100000x1_0 x4 e 0

/-- The wrapped graph words (a negative word plus one hundred) at a node, for the first gather. -/
theorem wrap44 (i : S100000.Idx) : val_main_v44 (F := Ideal) x4 i = wrapW 100#32 (x4 i) :=
  wrap_apply bcast_S_S100000 bcast_S_S100000 100#32 x4 i

/-- The same for the second gather. -/
theorem wrap63 (i : S100000.Idx) : val_main_v63 (F := Ideal) x4 i = wrapW 100#32 (x4 i) :=
  wrap_apply bcast_S_S100000 bcast_S_S100000 100#32 x4 i

/-- The first gather's start indices, the wrapped words as a column, at row `n`. -/
theorem col45 (n : Fin 100000) : val_main_v45 (F := Ideal) x4 (ix2 n 0) = wrapW 100#32 (x4 (ix1 n)) :=
  (bcast_col_apply bcast_S100000_S100000x1_0 (val_main_v44 (F := Ideal) x4) n 0).trans (wrap44 x4 (ix1 n))

/-- The second gather's start indices at row `n`. -/
theorem col64 (n : Fin 100000) : val_main_v64 (F := Ideal) x4 (ix2 n 0) = wrapW 100#32 (x4 (ix1 n)) :=
  (bcast_col_apply bcast_S100000_S100000x1_0 (val_main_v63 (F := Ideal) x4) n 0).trans (wrap63 x4 (ix1 n))

/-- The table the first segment sum starts from is zero everywhere. -/
theorem zero35 (i : S100x64.Idx) : val_main_v35 (F := Ideal) i = 0 := by
  rw [val_main_v35_apply, val_main_cst_5_apply, Ideal.ofBits_def, Ideal.ofBits_zero_f32]

/-- So is the second's. -/
theorem zero49 (i : S100x64.Idx) : val_main_v49 (F := Ideal) i = 0 := by
  rw [val_main_v49_apply, val_main_cst_8_apply, Ideal.ofBits_def, Ideal.ofBits_zero_f32]

/-! ## The statistics -/

/-- The per-graph sums of the aggregate rows. -/
theorem ref_musum (g : Fin 100) (f : Fin 64) :
    val_main_v37 (F := Ideal) x0 x1 x2 x3 x4 x6 x7 x8 (ix2 g f)
      = ∑ n ∈ Finset.univ.filter (fun n : Fin 100000 => (x4 (ix1 n)).toInt = (g.val : ℤ)),
          val_main_v32 (F := Ideal) x0 x1 x2 x3 x6 x7 x8 (ix2 n f) := by
  unfold val_main_v37
  generalize val_main_v32 (F := Ideal) x0 x1 x2 x3 x6 x7 x8 = agg
  -- the segment sum at (g, f): the zero table's entry plus the rows whose scatter index is g
  rw [scatterAdd2_apply (φ := .f32) scatter_S100x64_S100000x1_S100000x64_1_0_0_1 rfl rfl rfl rfl
    (val_main_v35 (F := Ideal)) (val_main_v36 (F := Ideal) x4) agg g f, zero35, zero_add]
  simp only [col36]

/-- A node's centred value: its aggregate less its graph's mean. -/
theorem ref_diff (n : Fin 100000) (f : Fin 64) :
    val_main_v47 (F := Ideal) x0 x1 x2 x3 x4 x5 x6 x7 x8 (ix2 n f)
      = val_main_v32 (F := Ideal) x0 x1 x2 x3 x6 x7 x8 (ix2 n f)
        - val_main_v39 (F := Ideal) x0 x1 x2 x3 x4 x5 x6 x7 x8 (ix2 (gRow (x4 (ix1 n))) f) := by
  unfold val_main_v47 val_main_v46
  generalize val_main_v32 (F := Ideal) x0 x1 x2 x3 x6 x7 x8 = agg
  generalize val_main_v39 (F := Ideal) x0 x1 x2 x3 x4 x5 x6 x7 x8 = mu
  -- the gathered row is the mean table's row at the clamped wrapped word
  rw [subf_apply, gather2_apply (by decide) gather_S100x64_S100000x1_S100000x64_1_0_n_n_0_1_164 rfl rfl rfl rfl rfl
    mu (val_main_v45 (F := Ideal) x4) n f, col45]
  rfl

/-- The per-graph sums of the squared centred values. -/
theorem ref_varsum (g : Fin 100) (f : Fin 64) :
    val_main_v51 (F := Ideal) x0 x1 x2 x3 x4 x5 x6 x7 x8 (ix2 g f)
      = ∑ n ∈ Finset.univ.filter (fun n : Fin 100000 => (x4 (ix1 n)).toInt = (g.val : ℤ)),
          val_main_v47 (F := Ideal) x0 x1 x2 x3 x4 x5 x6 x7 x8 (ix2 n f)
            * val_main_v47 (F := Ideal) x0 x1 x2 x3 x4 x5 x6 x7 x8 (ix2 n f) := by
  unfold val_main_v51 val_main_v48
  generalize val_main_v47 (F := Ideal) x0 x1 x2 x3 x4 x5 x6 x7 x8 = dif
  -- the segment sum at (g, f): the zero table's entry plus the squared rows whose scatter index is g
  refine (scatterAdd2_apply (φ := .f32) scatter_S100x64_S100000x1_S100000x64_1_0_0_1 rfl rfl rfl rfl
    (val_main_v49 (F := Ideal)) (val_main_v50 (F := Ideal) x4) (mulf (φ := .f32) dif dif) g f).trans ?_
  rw [zero49, zero_add]
  refine Finset.sum_congr (Finset.filter_congr (fun e _ => by rw [col50])) (fun e _ => ?_)
  exact mulf_apply (φ := .f32) dif dif (ix2 e f)

/-- The result: the centred value over its graph's deviation plus the small constant, scaled and shifted. -/
theorem ref_out (n : Fin 100000) (f : Fin 64) :
    val_main_v74 (F := Ideal) x0 x1 x2 x3 x4 x5 x6 x7 x8 x9 x10 (ix2 n f)
      = Ideal.div (val_main_v47 (F := Ideal) x0 x1 x2 x3 x4 x5 x6 x7 x8 (ix2 n f))
            (val_main_v58 (F := Ideal) x0 x1 x2 x3 x4 x5 x6 x7 x8 (ix2 (gRow (x4 (ix1 n))) f) + Ideal.ofBits .f32 0x358637BD#32)
          * x9 (ix1 f) + x10 (ix1 f) := by
  -- the scale and the shift, broadcast to a row and then to the array, read at (n, f) their entry f
  have h9 : val_main_v70 (F := Ideal) x9 (ix2 n f) = x9 (ix1 f) := by
    rw [val_main_v70_apply, val_main_v69_apply]
    congr 1
    funext a
    match a with
    | ⟨0, _⟩ => rfl
  have h10 : val_main_v73 (F := Ideal) x10 (ix2 n f) = x10 (ix1 f) := by
    rw [val_main_v73_apply, val_main_v72_apply]
    congr 1
    funext a
    match a with
    | ⟨0, _⟩ => rfl
  -- the gathered deviation is the deviation table's row at the clamped wrapped word
  have h65 : val_main_v65 (F := Ideal) x0 x1 x2 x3 x4 x5 x6 x7 x8 (ix2 n f)
      = val_main_v58 (F := Ideal) x0 x1 x2 x3 x4 x5 x6 x7 x8 (ix2 (gRow (x4 (ix1 n))) f) := by
    unfold val_main_v65
    generalize val_main_v58 (F := Ideal) x0 x1 x2 x3 x4 x5 x6 x7 x8 = sd
    rw [gather2_apply (by decide) gather_S100x64_S100000x1_S100000x64_1_0_n_n_0_1_164 rfl rfl rfl rfl rfl
      sd (val_main_v64 (F := Ideal) x4) n f, col64]
    rfl
  rw [val_main_v74_apply, val_main_v71_apply, val_main_v68_apply, val_main_v67_apply, val_main_v66_apply,
    val_main_cst_13_apply, h9, h10, h65]
  rfl

/-- The counts as a column, the way the reference lays them out, read at a graph: the count converted. -/
theorem ref_cnt (g : Fin 100) : val_main_v34 (F := Ideal) x5 (ix2 g 0) = ((x5 (ix1 g)).toInt : ℝ) :=
  bcast_col_apply bcast_S100_S100x1_0 (val_main_v33 (F := Ideal) x5) g 0

end Cert.ReferenceIdeal.GN

end
-- ==== Proof.Bridge.lean ====
/-
  The two programs meet array by array. The transformed features are the same row formula on both sides; the message
  aggregation is the same host function of them; the per-graph sums agree because the one-hot-weighted sum over the
  ten blocks of nodes is the sum over the nodes of each graph, which is what the reference's segment sum adds; the
  means and deviations are the same host functions of the sums and the counts (a count column laid out by a reshape on
  one side and by a broadcast on the other reads the same); and where every node's graph word names a graph, the
  one-hot selection of a table's row is the row the reference gathers, so the centred rows, the sums of their squares
  and the normalized result agree.
-/
import proofs.«140284_j83322365542770_1_alg».proof.Proof.KChain
import proofs.«140284_j83322365542770_1_alg».proof.Proof.KReg0
import proofs.«140284_j83322365542770_1_alg».proof.Proof.KReg1
import proofs.«140284_j83322365542770_1_alg».proof.Proof.KReg2
import proofs.«140284_j83322365542770_1_alg».proof.Proof.KReg3
import proofs.«140284_j83322365542770_1_alg».proof.Proof.RefMlp
import proofs.«140284_j83322365542770_1_alg».proof.Proof.RefStats
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.GN Cert.KernelIdeal.GN Cert.ReferenceIdeal.GN Cert.LibGatherScatter
open Cert.ReferenceIdeal.Read
open scoped BigOperators

variable (m : (ℓ : Loc nD τ sig) → Buf (Elt Ideal) ℓ) (ρ : Dev nD → PrngReg) (c : Dev nD)

/-! ## The reference's stages at the kernel's argument arrays -/

abbrev rH : FVec Ideal S100000x64 .f32 := val_main_v16 (F := Ideal) (aX m c) (aS m c) (aWs m c) (aW1 m c) (aW2 m c)
abbrev rAgg : FVec Ideal S100000x64 .f32 := val_main_v32 (F := Ideal) (aX m c) (aS m c) (aEi m c) (aW m c) (aWs m c) (aW1 m c) (aW2 m c)
abbrev rMuSum : FVec Ideal S100x64 .f32 := val_main_v37 (F := Ideal) (aX m c) (aS m c) (aEi m c) (aW m c) (aB m c) (aWs m c) (aW1 m c) (aW2 m c)
abbrev rMu : FVec Ideal S100x64 .f32 := val_main_v39 (F := Ideal) (aX m c) (aS m c) (aEi m c) (aW m c) (aB m c) (aBn m c) (aWs m c) (aW1 m c) (aW2 m c)
abbrev rDiff : FVec Ideal S100000x64 .f32 := val_main_v47 (F := Ideal) (aX m c) (aS m c) (aEi m c) (aW m c) (aB m c) (aBn m c) (aWs m c) (aW1 m c) (aW2 m c)
abbrev rVarSum : FVec Ideal S100x64 .f32 := val_main_v51 (F := Ideal) (aX m c) (aS m c) (aEi m c) (aW m c) (aB m c) (aBn m c) (aWs m c) (aW1 m c) (aW2 m c)
abbrev rSg : FVec Ideal S100x64 .f32 := val_main_v58 (F := Ideal) (aX m c) (aS m c) (aEi m c) (aW m c) (aB m c) (aBn m c) (aWs m c) (aW1 m c) (aW2 m c)
abbrev rOut : FVec Ideal S100000x64 .f32 := val_main_v74 (F := Ideal) (aX m c) (aS m c) (aEi m c) (aW m c) (aB m c) (aBn m c) (aWs m c) (aW1 m c) (aW2 m c) (aGam m c) (aBet m c)

/-! ## The transformed features and their aggregation -/

/-- The first region's array is the reference's transformed features: the same row formula at every node. -/
theorem h_eq : hOut (V1 m ρ) c = rH m c := by
  funext i
  obtain ⟨n, j, rfl⟩ : ∃ (n : Fin 100000) (j : Fin 64), i = ix2 n j := ⟨i 0, i 1, eq_ix2 i⟩
  obtain ⟨t, r, rfl⟩ := exists_node n
  rw [value0, in0_x, in0_s, in0_A, in0_B, in0_C]
  exact (ref_h (aX m c) (aS m c) (aWs m c) (aW1 m c) (aW2 m c) (node t r) j).symm

/-- The aggregate every later region finds is the reference's: one host function of equal features. -/
theorem agg_eq : AGG m ρ c = rAgg m c := by
  show aggOf (hOut (V1 m ρ) c) (aEi m c) (aW m c) = _
  rw [h_eq m ρ c]
  rfl

/-! ## Layouts read at an index -/

/-- A vector cast to a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem bColOf_apply (b : IVec S100000 32) (n : Fin 100000) (u : Fin 1) : bColOf b (ix2 n u) = b (ix1 n) := by
  unfold bColOf
  exact shapeCast_a_a1_apply b _ n u
theorem cntOf_apply (bn : IVec S100 32) (g : Fin 100) (u : Fin 1) : cntOf bn (ix2 g u) = (((bn (ix1 g)).toInt : ℝ) : EReal) := by
  unfold cntOf
  rw [shapeCast_a_a1_apply]
  rfl
theorem rowOf_apply (v : FVec Ideal S64 .f32) (u : Fin 1) (f : Fin 64) : rowOf v (ix2 u f) = v (ix1 f) := by
  unfold rowOf
  exact shapeCast_a_1a_apply v _ u f

/-! ## The per-graph sums and means -/

/-- The one-hot-weighted sums over the ten blocks are the sums over each graph's nodes: the reference's segment sum. -/
theorem musum_eq : muSumOut (V3 m ρ) c = rMuSum m c := by
  funext i
  obtain ⟨g, f, rfl⟩ : ∃ (g : Fin 100) (f : Fin 64), i = ix2 g f := ⟨i 0, i 1, eq_ix2 i⟩
  rw [value1, agg3, b3]
  calc (∑ t : Fin 10, ohSeg (fun r : Fin 10000 => bColOf (aB m c) (ix2 (node t r) 0)) (fun r : Fin 10000 => AGG m ρ c (ix2 (node t r) f)) g)
      = ∑ n : Fin 100000, oh (bColOf (aB m c) (ix2 n 0)) g * AGG m ρ c (ix2 n f) :=
        (sum_blocks (fun n => oh (bColOf (aB m c) (ix2 n 0)) g * AGG m ρ c (ix2 n f))).symm
    _ = ∑ n ∈ Finset.univ.filter (fun n : Fin 100000 => (bColOf (aB m c) (ix2 n 0)).toInt = (g.val : ℤ)), AGG m ρ c (ix2 n f) :=
        ohSeg_eq_filter (fun n => bColOf (aB m c) (ix2 n 0)) (fun n => AGG m ρ c (ix2 n f)) g
    _ = rMuSum m c (ix2 g f) := by
        rw [show rMuSum m c (ix2 g f) = _ from ref_musum (aX m c) (aS m c) (aEi m c) (aW m c) (aB m c) (aWs m c) (aW1 m c) (aW2 m c) g f]
        simp only [bColOf_apply]
        rw [agg_eq m ρ c]

/-- The counts as a column: the reshape on one side and the broadcast on the other read the same. -/
theorem cnt_eq : cntOf (aBn m c) = val_main_v34 (F := Ideal) (aBn m c) := by
  funext i
  obtain ⟨g, u, rfl⟩ : ∃ (g : Fin 100) (u : Fin 1), i = ix2 g u := ⟨i 0, i 1, eq_ix2 i⟩
  obtain rfl : u = 0 := Subsingleton.elim _ _
  rw [cntOf_apply]
  exact (ref_cnt (aBn m c) g).symm

theorem mu_eq : MU m ρ c = rMu m c := by
  show muOver (muSumOut (V3 m ρ) c) (cntOf (aBn m c)) = _
  rw [musum_eq m ρ c, cnt_eq m c]
  rfl

/-! ## Where every node's graph word names a graph -/

section InRange
variable (hb : ∀ n : Fin 100000, 0 ≤ (aB m c (ix1 n)).toInt ∧ (aB m c (ix1 n)).toInt < 100)
include hb

/-- The row the reference gathers at a node is the row of the node's graph. -/
theorem gRow_eq (n : Fin 100000) :
    gRow (aB m c (ix1 n)) = (⟨(aB m c (ix1 n)).toInt.toNat, by have := hb n; omega⟩ : Fin 100) :=
  Fin.ext (gRow_of_inRange _ (hb n).1 (hb n).2)

/-- A node's centred value at a later region's entry is the reference's: the one-hot selection of the means is the
    mean of the node's graph. -/
theorem centred_eq (V : (c : Dev nD) → (b : Ref sig .tc) → Buf (Elt Ideal) ((c : Thread nD τ).loc b))
    (hagg : aggArr V c = AGG m ρ c) (hbc : bCol V c = bColOf (aB m c)) (hmu : muArr V c = MU m ρ c)
    (n : Fin 100000) (f : Fin 64) : centred V c n f = rDiff m c (ix2 n f) := by
  unfold centred
  rw [hagg, hbc, hmu, bColOf_apply, ohSel_of_inRange _ (hb n).1 (hb n).2]
  rw [show rDiff m c (ix2 n f) = _ from ref_diff (aX m c) (aS m c) (aEi m c) (aW m c) (aB m c) (aBn m c) (aWs m c) (aW1 m c) (aW2 m c) n f]
  rw [agg_eq m ρ c, mu_eq m ρ c, gRow_eq m c hb n]

theorem varsum_eq : varSumOut (V5 m ρ) c = rVarSum m c := by
  funext i
  obtain ⟨g, f, rfl⟩ : ∃ (g : Fin 100) (f : Fin 64), i = ix2 g f := ⟨i 0, i 1, eq_ix2 i⟩
  rw [value2, b5]
  simp only [centred_eq m ρ c hb (V5 m ρ) (agg5 m ρ c) (b5 m ρ c) (mu5 m ρ c)]
  calc (∑ t : Fin 10, ohSeg (fun r : Fin 10000 => bColOf (aB m c) (ix2 (node t r) 0))
          (fun r : Fin 10000 => rDiff m c (ix2 (node t r) f) * rDiff m c (ix2 (node t r) f)) g)
      = ∑ n : Fin 100000, oh (bColOf (aB m c) (ix2 n 0)) g * (rDiff m c (ix2 n f) * rDiff m c (ix2 n f)) :=
        (sum_blocks (fun n => oh (bColOf (aB m c) (ix2 n 0)) g * (rDiff m c (ix2 n f) * rDiff m c (ix2 n f)))).symm
    _ = ∑ n ∈ Finset.univ.filter (fun n : Fin 100000 => (bColOf (aB m c) (ix2 n 0)).toInt = (g.val : ℤ)),
          rDiff m c (ix2 n f) * rDiff m c (ix2 n f) :=
        ohSeg_eq_filter (fun n => bColOf (aB m c) (ix2 n 0)) (fun n => rDiff m c (ix2 n f) * rDiff m c (ix2 n f)) g
    _ = rVarSum m c (ix2 g f) := by
        rw [show rVarSum m c (ix2 g f) = _ from ref_varsum (aX m c) (aS m c) (aEi m c) (aW m c) (aB m c) (aBn m c) (aWs m c) (aW1 m c) (aW2 m c) g f]
        simp only [bColOf_apply]

theorem sg_eq : SG m ρ c = rSg m c := by
  show sgOver (varSumOut (V5 m ρ) c) (cntOf (aBn m c)) = _
  rw [varsum_eq m ρ c hb, cnt_eq m c]
  rfl

/-- The last region's array is the reference's result. -/
theorem out_eq : normOut (V7 m ρ) c = rOut m c := by
  funext i
  obtain ⟨n, f, rfl⟩ : ∃ (n : Fin 100000) (f : Fin 64), i = ix2 n f := ⟨i 0, i 1, eq_ix2 i⟩
  obtain ⟨t, r, rfl⟩ := exists_node n
  rw [value3, centred_eq m ρ c hb (V7 m ρ) (agg7 m ρ c) (b7 m ρ c) (mu7 m ρ c), b7, sg7, gam7, bet7, bColOf_apply,
    ohSel_of_inRange _ (hb (node t r)).1 (hb (node t r)).2, rowOf_apply, rowOf_apply]
  rw [show rOut m c (ix2 (node t r) f) = _ from ref_out (aX m c) (aS m c) (aEi m c) (aW m c) (aB m c) (aBn m c) (aWs m c) (aW1 m c) (aW2 m c) (aGam m c) (aBet m c) (node t r) f]
  rw [sg_eq m ρ c hb, gRow_eq m c hb (node t r)]

/-- The result array after the run is the reference's result term of the same arguments. -/
theorem result_eq : W8 m ρ c (Proc.devRef .tc main_v36) = rOut m c :=
  (out3 m ρ c).trans (out_eq m ρ c hb)

end InRange

end Cert.Bridge

end
-- ==== Proof.lean ====
/-
  The certificate's claims. Both programs compute, for a graph batch, a feature transform of every node
  (two leaky-rectified matrix products and a third product), the aggregation of the edge messages onto their
  destination nodes, and a per-graph normalization of the aggregate (mean, deviation with the count less one,
  scale and shift). The kernel does the transform, the two per-graph statistics and the normalization in four
  pallas_calls over ten blocks of ten thousand nodes, spelling "the nodes of graph g" and "the row of a node's
  graph" as products with a one-hot indicator of the node's graph word; the reference spells them as a segment
  sum and a gather. The two agree at every input whose graph words name a graph (0 ≤ word < 100, the added
  conjunct of the precondition): elsewhere the indicator selects nothing where the gather wraps or clamps.

  The three programs run and leave their arguments as launched (the generated frames; the reference's is its
  generated run with the result dropped); the idealization rewrote nothing; and at the ideal values the kernel's
  result array — what the last region's pipeline leaves, read back through the four regions and the host
  operations between them — is the reference's result term of the same arguments.
-/
import proofs.«140284_j83322365542770_1_alg».proof.Defs
import proofs.«140284_j83322365542770_1_alg».proof.Proof.Gen.Kernel
import proofs.«140284_j83322365542770_1_alg».proof.Proof.Gen.Kernel.Frame
import proofs.«140284_j83322365542770_1_alg».proof.Proof.Gen.KernelIdeal
import proofs.«140284_j83322365542770_1_alg».proof.Proof.Gen.KernelIdeal.Frame
import proofs.«140284_j83322365542770_1_alg».proof.Proof.Gen.ReferenceIdeal
import proofs.«140284_j83322365542770_1_alg».proof.Proof.Gen.Pre_finite_inputs
import proofs.«140284_j83322365542770_1_alg».proof.Proof.RefRead
import proofs.«140284_j83322365542770_1_alg».proof.Proof.KRun
import proofs.«140284_j83322365542770_1_alg».proof.Proof.PreRange
import proofs.«140284_j83322365542770_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values, from memories that agree on the arguments, the kernel's result array ends at the
    reference's result term (the bridge, under the graph words' range read off the precondition) and the
    reference's at the same term of its own, equal, arguments. -/
theorem algebraic : Cert.algebraic_KernelIdeal_ReferenceIdeal := by
  intro m ρ m' ρ' hpre hagree
  refine ⟨fun c => Cert.Bridge.rOut m c, ?_, ?_⟩
  · exact (θ_run Cert.KernelIdeal.defs _ _).mono
      (fun _ h c => ⟨(h c).1.trans (Cert.Bridge.result_eq m ρ c (fun n => Cert.GN.batch_inRange m hpre c n)), (h c).2⟩)
      (Cert.KernelIdeal.GN.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
